-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S5632x2048 : Shape := ⟨2, ![5632, 2048]⟩
abbrev S2048x5632 : Shape := ⟨2, ![2048, 5632]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S5632x2048 : S_.BroadcastsInDim S5632x2048 (![] : Fin 0 → Fin S5632x2048.rank)
  reducesTo_S5632x2048_S_d0_1 : S5632x2048.ReducesTo [0, 1] S_
  bcast_S_S2048x5632 : S_.BroadcastsInDim S2048x5632 (![] : Fin 0 → Fin S2048x5632.rank)
  reducesTo_S2048x5632_S_d0_1 : S2048x5632.ReducesTo [0, 1] S_

variable [Facts]

def fn_part1 {F : FTy → Type} [FloatOps F] (main_arg4 : FVec F S2048x5632 .f32) (main_v13 : IVec S_ 1) (main_v16 : IVec S5632x2048 1) : IVec S_ 1 :=
  let main_c_5 : IVec S_ 1 := constantI S_ 1 1#1
  let main_v17 : IVec S_ 1 := (fun x v => Host.reduce IntOp.andi x v reducesTo_S5632x2048_S_d0_1 h_S_) main_v16 main_c_5
  let main_v18 : IVec S_ 1 := andi main_v13 main_v17
  let main_v19 : FVec F S2048x5632 .f32 := Host.absf main_arg4
  let main_cst_6 : FVec F S_ .f32 := constant S_ .f32 0x7F800000#32
  let main_v20 : FVec F S2048x5632 .f32 := broadcastInDim S2048x5632 ![] bcast_S_S2048x5632 main_cst_6
  let main_v21 : IVec S2048x5632 1 := cmpf .olt main_v19 main_v20
  let main_c_7 : IVec S_ 1 := constantI S_ 1 1#1
  let main_v22 : IVec S_ 1 := (fun x v => Host.reduce IntOp.andi x v reducesTo_S2048x5632_S_d0_1 h_S_) main_v21 main_c_7
  let main_v23 : IVec S_ 1 := andi main_v18 main_v22
  main_v23

def fn {F : FTy → Type} [FloatOps F] (main_arg0 : FVec F S8192x2048 .f32) (main_arg1 : FVec F S2048x2048 .f32) (main_arg2 : FVec F S5632x2048 .f32) (main_arg3 : FVec F S5632x2048 .f32) (main_arg4 : FVec F S2048x5632 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S5632x2048 .f32 := Host.absf main_arg2
  let main_cst_2 : FVec F S_ .f32 := constant S_ .f32 0x7F800000#32
  let main_v10 : FVec F S5632x2048 .f32 := broadcastInDim S5632x2048 ![] bcast_S_S5632x2048 main_cst_2
  let main_v11 : IVec S5632x2048 1 := cmpf .olt main_v9 main_v10
  let main_c_3 : IVec S_ 1 := constantI S_ 1 1#1
  let main_v12 : IVec S_ 1 := (fun x v => Host.reduce IntOp.andi x v reducesTo_S5632x2048_S_d0_1 h_S_) main_v11 main_c_3
  let main_v13 : IVec S_ 1 := andi main_v8 main_v12
  let main_v14 : FVec F S5632x2048 .f32 := Host.absf main_arg3
  let main_cst_4 : FVec F S_ .f32 := constant S_ .f32 0x7F800000#32
  let main_v15 : FVec F S5632x2048 .f32 := broadcastInDim S5632x2048 ![] bcast_S_S5632x2048 main_cst_4
  let main_v16 : IVec S5632x2048 1 := cmpf .olt main_v14 main_v15
  fn_part1 (F := F) main_arg4 main_v13 main_v16
-- ==== Kernel.lean ====
abbrev S8192x2048 : Shape := ⟨2, ![8192, 2048]⟩
abbrev S2048x2048 : Shape := ⟨2, ![2048, 2048]⟩
abbrev S5632x2048 : Shape := ⟨2, ![5632, 2048]⟩
abbrev S2048x5632 : Shape := ⟨2, ![2048, 5632]⟩
abbrev S512x2048 : Shape := ⟨2, ![512, 2048]⟩
abbrev S8192x5632 : Shape := ⟨2, ![8192, 5632]⟩
abbrev S512x512 : Shape := ⟨2, ![512, 512]⟩
abbrev S2048x512 : Shape := ⟨2, ![2048, 512]⟩

abbrev nBuf : Space → Nat
  | .hbm => 12
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S5632x2048, .f32⟩
  | .hbm, ⟨3, _⟩ => ⟨S5632x2048, .f32⟩
  | .hbm, ⟨4, _⟩ => ⟨S2048x5632, .f32⟩
  | .hbm, ⟨5, _⟩ => ⟨S2048x2048, .bf16⟩
  | .hbm, ⟨6, _⟩ => ⟨S5632x2048, .bf16⟩
  | .hbm, ⟨7, _⟩ => ⟨S5632x2048, .bf16⟩
  | .hbm, ⟨8, _⟩ => ⟨S2048x5632, .bf16⟩
  | .hbm, ⟨9, _⟩ => ⟨S8192x2048, .bf16⟩
  | .hbm, ⟨10, _⟩ => ⟨S8192x5632, .bf16⟩
  | .hbm, ⟨11, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S2048x512, .bf16⟩
  | .local _ .vmem, ⟨16, _⟩ => ⟨S2048x512, .bf16⟩
  | .local _ .vmem, ⟨17, _⟩ => ⟨S512x2048, .f32⟩
  | .local _ .vmem, ⟨18, _⟩ => ⟨S512x2048, .f32⟩
  | .local _ .vmem, ⟨19, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![16, 11], ![false, false]⟩

def k2_cond2 (i : grid2.Coords) : BitVec 1 :=
  let arg1 : BitVec 32 := BitVec.ofNat 32 (i 1).val
  let c10_i32 : BitVec 32 := 10#32
  let v13 : BitVec 1 := Scalar.cmpi .eq arg1 c10_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  packedbf16_S512x2048_S512x2048_0_0 : (Rect.unit (s := S512x2048) ![0, 0] S512x2048.size inb_S512x2048_S512x2048_0_0).PackedRows (EltTy.packing .bf16)
  shapeCasts_S512x2048_S512x2048 : S512x2048.ShapeCasts S512x2048
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  shapeCasts_S512x512_S512x512 : S512x512.ShapeCasts S512x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  dot_S512x2048_S2048x2048_S512x2048_1_1_0_0_n_n_wf : DotDims.WF S512x2048 S2048x2048 S512x2048 [1] [1] [0] [0] [] []
  dot_S512x2048_S512x2048_S512x512_1_1_0_0_n_n_wf : DotDims.WF S512x2048 S512x2048 S512x512 [1] [1] [0] [0] [] []
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .bf16 = 32 ∨ (Rect.block (s := S8192x2048) S512x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .bf16 = 32 ∨ (Rect.block (s := S8192x2048) S512x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S5632x2048.size a
  hwx1_1 : ∀ i : grid1.Coords, EltTy.bits .bf16 = 32 ∨ (Rect.block (s := S5632x2048) S512x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S5632x2048.size a
  hwx1_2 : ∀ i : grid1.Coords, EltTy.bits .bf16 = 32 ∨ (Rect.block (s := S5632x2048) S512x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S8192x5632.size a
  hwx1_3 : ∀ i : grid1.Coords, EltTy.bits .bf16 = 32 ∨ (Rect.block (s := S8192x5632) S512x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S8192x5632.size a
  hwx2_0 : ∀ i : grid2.Coords, EltTy.bits .bf16 = 32 ∨ (Rect.block (s := S8192x5632) S512x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x512.size a ≤ S2048x5632.size a
  hwx2_1 : ∀ i : grid2.Coords, EltTy.bits .bf16 = 32 ∨ (Rect.block (s := S2048x5632) S2048x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x2048.size a ≤ S8192x2048.size a
  hwx2_2 : ∀ i : grid2.Coords, EltTy.bits .f32 = 32 ∨ (Rect.block (s := S8192x2048) S512x2048.size (cc2_transform_2 i) (hinb2_2 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf
def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S2048x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S512x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S8192x2048 : Shape := ⟨2, ![8192, 2048]⟩
abbrev S2048x2048 : Shape := ⟨2, ![2048, 2048]⟩
abbrev S5632x2048 : Shape := ⟨2, ![5632, 2048]⟩
abbrev S2048x5632 : Shape := ⟨2, ![2048, 5632]⟩
abbrev S8192x5632 : Shape := ⟨2, ![8192, 5632]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S5632x2048, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S8192x2048, .f32⟩
  | .hbm, ⟨7, _⟩ => ⟨S2048x5632, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S2048x5632, .f32⟩
  | .hbm, ⟨19, _⟩ => ⟨S8192x5632, .f32⟩
  | .hbm, ⟨20, _⟩ => ⟨S8192x5632, .f32⟩
  | .hbm, ⟨21, _⟩ => ⟨S5632x2048, .f32⟩
  | .hbm, ⟨22, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]

class Facts₀ : Prop where
  transposes_S2048x2048_S2048x2048_1_0 : S2048x2048.Transposes [1, 0] S2048x2048
  transposes_S5632x2048_S2048x5632_1_0 : S5632x2048.Transposes [1, 0] S2048x5632
  bcast_S_S8192x5632 : S_.BroadcastsInDim S8192x5632 (![] : Fin 0 → Fin S8192x5632.rank)
  transposes_S2048x5632_S5632x2048_1_0 : S2048x5632.Transposes [1, 0] S5632x2048
  dot_S8192x2048_S2048x2048_S8192x2048_1_0_0_1_n_n_wf : DotDims.WF S8192x2048 S2048x2048 S8192x2048 [1] [0] [0] [1] [] []
  dot_S8192x2048_S2048x5632_S8192x5632_1_0_0_1_n_n_wf : DotDims.WF S8192x2048 S2048x5632 S8192x5632 [1] [0] [0] [1] [] []
  dot_S8192x5632_S5632x2048_S8192x2048_1_0_0_1_n_n_wf : DotDims.WF S8192x5632 S5632x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf
def dot_S8192x2048_S2048x5632_S8192x5632_1_0_0_1_n_n : DotDims S8192x2048 S2048x5632 S8192x5632 where
  lhsContracting := [1]
  rhsContracting := [0]
  lhsNonContracting := [0]
  rhsNonContracting := [1]
  lhsBatch := []
  rhsBatch := []
  wf := dot_S8192x2048_S2048x5632_S8192x5632_1_0_0_1_n_n_wf
def dot_S8192x5632_S5632x2048_S8192x2048_1_0_0_1_n_n : DotDims S8192x5632 S5632x2048 S8192x2048 where
  lhsContracting := [1]
  rhsContracting := [0]
  lhsNonContracting := [0]
  rhsNonContracting := [1]
  lhsBatch := []
  rhsBatch := []
  wf := dot_S8192x5632_S5632x2048_S8192x2048_1_0_0_1_n_n_wf

class Facts : Prop extends Facts₀ where

variable [Facts]
-- ==== Proof.K.Rot.lean ====
/-
  The first launch (the rotation x · Hᵀ), at any float instance, over the contents V the launch finds in the buffers.

  Its grid has 16 points; point t stages rows 512 t … 512 t + 511 of x (window 0), the whole of H (window 1, fetched once
  and kept), and writes rows 512 t … of the result (window 2). The body loads the two input blocks, multiplies, and
  stores the whole output block once. This module states what the output block holds after the body (the one stored piece
  over the two loaded blocks), proves the body's triple, and packages the per-point data the pipeline rule asks for.
-/
import proofs.«165255_j59047210385427_1_alg».proof.Proof.Gen.Kernel.Launch
import proofs.«165255_j59047210385427_1_alg».proof.Proof.Gen.Kernel.Skeleton
import proofs.«165255_j59047210385427_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Mlp

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetches it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 512 × 2048 block and the whole 2048 × 2048 block, as rectangles. -/
abbrev rX0 : Rect S512x2048 := Rect.unit (s := S512x2048) ![0, 0] S512x2048.size inb_S512x2048_S512x2048_0_0
abbrev rH0 : Rect S2048x2048 := Rect.unit (s := S2048x2048) ![0, 0] S2048x2048.size inb_S2048x2048_S2048x2048_0_0

/-- What the body leaves in the output block: its one store, of the product of the two loaded blocks. -/
def rotOut (x0 : Vec F S512x2048 .f32) (x1 : Vec F S2048x2048 .bf16) : Vec F S512x2048 .bf16 :=
  View.canon [⟨rX0, k0_pay1 (View.ld x0 rX0) (View.ld x1 rH0)⟩]

/-- The one store covers the block. -/
theorem rotCover (p0 : Vec F S512x2048 .bf16) (y : S512x2048.Idx) :
    ∃ pc ∈ ([⟨rX0, p0⟩] : List (View.Piece (Elt F) S512x2048 .bf16)), y ∈ pc.1.set :=
  View.cover_of_tiled [⟨rX0, p0⟩] S512x2048.size (by rfl) y

set_option maxHeartbeats 1000000 in
/-- The body on whole staging buffers: the inputs keep their contents, the output ends at `rotOut` of them. -/
theorem sound_rot (c : Dev nD) (E : Set ℕ) (i : grid0.Coords) (arg1 : Memref sig .tc .vmem S512x2048 .f32) (harg1 : arg1.IsWhole)
    (arg2 : Memref sig .tc .vmem S2048x2048 .bf16) (harg2 : arg2.IsWhole) (arg3 : Memref sig .tc .vmem S512x2048 .bf16) (harg3 : arg3.IsWhole)
    (x0 : Vec F S512x2048 .f32) (x1 : Vec F S2048x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (rotOut x0 x1)) -∗ K ⟨⟩))
      ⊢ wp frame (wpE (defs₀ (F := F)) Variants.none c none) E (cc0__rot_kernel i arg1 harg1 arg2 harg2 arg3 harg3) K := by
  simp only [cc0__rot_kernel_eq_skeleton]; unfold cc0__rot_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (rotCover _)

/-- The per-point data of the first launch on core c: the arrays as found; after the body each input buffer at its
    block and the output buffer at `rotOut` of the input blocks; nothing carried between points; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => rotOut (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = rotOut (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_rot c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's obligation on the body, at every point. -/
theorem body_obligation0 (c : Dev nD) : BodyObligation (dat0 (F := F) V c) (defs₀ (F := F)) Variants.none () Set.univ := fun t => by
  rw [bigSep_W0, bigSep_W0]
  exact sound_body0 V c t

end

end Cert.Kernel.Mlp

end
-- ==== Proof.K.GateUp.lean ====
/-
  The second launch (gate and up projections and their gated product), at any float instance, over the contents V the
  launch finds in the buffers.

  Its grid is 16 × 11; point (i, j) stages rows 512 i … of the rotated activations (window 0), rows 512 j … of the gate
  weights (window 1) and of the up weights (window 2), and writes the 512 × 512 block (i, j) of the hidden activations
  (window 3). The body loads the three input blocks, forms s = xr · Gᵀ and u = xr · Uᵀ on the block, and stores
  (s · logistic s) · u once, covering the output block.
-/
import proofs.«165255_j59047210385427_1_alg».proof.Proof.Gen.Kernel.Launch
import proofs.«165255_j59047210385427_1_alg».proof.Proof.Gen.Kernel.Skeleton
import proofs.«165255_j59047210385427_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Mlp

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the point fetches it or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole 512 × 2048 block and the whole 512 × 512 block, as rectangles. -/
abbrev rX1 : Rect S512x2048 := Rect.unit (s := S512x2048) ![0, 0] S512x2048.size inb_S512x2048_S512x2048_0_0
abbrev rO1 : Rect S512x512 := Rect.unit (s := S512x512) ![0, 0] S512x512.size inb_S512x512_S512x512_0_0

/-- What the body leaves in the output block: its one store, of the gated product over the three loaded blocks. -/
def guOut (x0 x1 x2 : Vec F S512x2048 .bf16) : Vec F S512x512 .bf16 :=
  View.canon [⟨rO1, k1_pay1 (View.ld x0 rX1) (View.ld x1 rX1) (View.ld x2 rX1)⟩]

/-- The one store covers the block. -/
theorem guCover (p0 : Vec F S512x512 .bf16) (y : S512x512.Idx) :
    ∃ pc ∈ ([⟨rO1, p0⟩] : List (View.Piece (Elt F) S512x512 .bf16)), y ∈ pc.1.set :=
  View.cover_of_tiled [⟨rO1, p0⟩] S512x512.size (by rfl) y

set_option maxHeartbeats 1000000 in
/-- The body on whole staging buffers: the inputs keep their contents, the output ends at `guOut` of them. -/
theorem sound_gu (c : Dev nD) (E : Set ℕ) (i : grid1.Coords) (arg2 : Memref sig .tc .vmem S512x2048 .bf16) (harg2 : arg2.IsWhole)
    (arg3 : Memref sig .tc .vmem S512x2048 .bf16) (harg3 : arg3.IsWhole) (arg4 : Memref sig .tc .vmem S512x2048 .bf16) (harg4 : arg4.IsWhole)
    (arg5 : Memref sig .tc .vmem S512x512 .bf16) (harg5 : arg5.IsWhole)
    (x0 x1 x2 : Vec F S512x2048 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (guOut x0 x1 x2)) -∗ K ⟨⟩))
      ⊢ wp frame (wpE (defs₀ (F := F)) Variants.none c none) E (cc1__gu_kernel i arg2 harg2 arg3 harg3 arg4 harg4 arg5 harg5) K := by
  simp only [cc1__gu_kernel_eq_skeleton]; unfold cc1__gu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (guCover _)

/-- The per-point data of the second launch on core c: the arrays as found; after the body each input buffer at its
    block and the output buffer at `guOut` of the input blocks; nothing carried between points; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => guOut (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = guOut (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_gu c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's obligation on the body, at every point. -/
theorem body_obligation1 (c : Dev nD) : BodyObligation (dat1 (F := F) V c) (defs₀ (F := F)) Variants.none () Set.univ := fun t => by
  rw [bigSep_W1, bigSep_W1]
  exact sound_body1 V c t

end

end Cert.Kernel.Mlp

end
-- ==== Proof.K.Down.lean ====
/-
  The third launch (the down projection h · Dᵀ, accumulated over the inner dimension), at any float instance, over the
  contents V the launch finds in the buffers.

  Its grid is 16 × 11; point (i, k) stages the 512 × 512 block (i, k) of the hidden activations (window 0) and columns
  512 k … of the down weights (window 1). A scratch block of 512 × 2048 is carried from point to point: at k = 0 it is
  reset to zero; at every k the product of the two staged blocks is added to it; at k = 10 it is copied into the output
  block (window 2: rows 512 i … of the result), which is written back at those points only and left untouched at the
  others. So the body has three control cases by k (first, middle, last), and what the scratch holds after a point is
  defined by recursion on the point. The invariant between points holds the scratch at that content, beside the scoped
  buffers of the other two launches, which this launch never touches.
-/
import proofs.«165255_j59047210385427_1_alg».proof.Proof.Gen.Kernel.Launch
import proofs.«165255_j59047210385427_1_alg».proof.Proof.Gen.Kernel.Skeleton
import proofs.«165255_j59047210385427_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Mlp

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The two branch conditions, in closed form over the grid -/

/-- k = 0: the scratch is reset. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 11 = 0 :=
  (by decide +kernel : ∀ t : Fin grid2.N, cond2_0 (grid2.coords t) ↔ t.val % 11 = 0)
/-- k = 10: the scratch is copied out. -/
abbrev cond2_1 (i : grid2.Coords) : Prop := k2_cond2 i = 1#1
theorem hcond2_1 : ∀ t : Fin cfg2.N, cond2_1 (grid2.coords t) ↔ t.val % 11 = 10 :=
  (by decide +kernel : ∀ t : Fin grid2.N, cond2_1 (grid2.coords t) ↔ t.val % 11 = 10)

/-- The input windows are never idle; the output window is idle, and not written back, exactly off k = 10. -/
theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-! ## The staging and scratch memrefs at a point -/

abbrev ms2_0 (t : Fin cfg2.N) : Memref sig .tc .vmem S512x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x2048 .f32 := win2_2.stage (cfg2.slots t 2)
abbrev hs2_2 (t : Fin cfg2.N) : (ms2_2 t).IsWhole := hstage2_2 ((cfg2.slots t 2).cast nbuf2_2)
/-- The carried scratch, as a memref and as a view. -/
abbrev scM2 : Memref sig .tc .vmem S512x2048 .f32 := Memref.whole cc2_scratch0
abbrev VS2 : View sig .tc .vmem S512x2048 .f32 := scM2.view
/-- One staging buffer of the output window, through which its contents are stated. -/
abbrev VO2 : View sig .tc .vmem S512x2048 .f32 := (Memref.whole cc2_stg2_0 : Memref sig .tc .vmem S512x2048 .f32).view

/-! ## The body's three cases: what its stores leave, found by running it -/

set_option maxHeartbeats 1000000 in
/-- k = 0 (and not 10): the scratch, found at anything, ends with the listed pieces written; the output buffer is
    handed back untouched. -/
noncomputable def downRunA (c : Dev nD) (i : grid2.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : cond2_0 i) (hc1 : ¬cond2_1 i)
    (x0 : Vec F S512x512 .bf16) (x1 : Vec F S2048x512 .bf16) :
    { LS : List (View.Piece (Elt F) S512x2048 .f32) //
      ∀ (xi : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare xi
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc2__down_kernel i arg2 harg2 arg3 harg3 arg4 harg4 arg5 harg5) K } := by
  refine ⟨?_, fun xi E K => ?run⟩
  case run =>
    simp only [cc2__down_kernel_eq_skeleton]; unfold cc2__down_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- 0 < k < 10: the scratch, found at what the point before left, ends with the listed pieces written; the output
    buffer is handed back untouched. -/
noncomputable def downRunB (c : Dev nD) (i : grid2.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond2_0 i) (hc1 : ¬cond2_1 i)
    (x0 : Vec F S512x512 .bf16) (x1 : Vec F S2048x512 .bf16) (xs : Vec F S512x2048 .f32) :
    { LS : List (View.Piece (Elt F) S512x2048 .f32) //
      ∀ (xi : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare xi
            ∗ owns (c : Thread nD τ) arg5 fullShare xs
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc2__down_kernel i arg2 harg2 arg3 harg3 arg4 harg4 arg5 harg5) K } := by
  refine ⟨?_, fun xi E K => ?run⟩
  case run =>
    simp only [cc2__down_kernel_eq_skeleton]; unfold cc2__down_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- k = 10: the scratch, found at what the point before left, and the output buffer, found at anything, each end with
    the listed pieces written. -/
noncomputable def downRunC (c : Dev nD) (i : grid2.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond2_0 i) (hc1 : cond2_1 i)
    (x0 : Vec F S512x512 .bf16) (x1 : Vec F S2048x512 .bf16) (xs : Vec F S512x2048 .f32) :
    Σ' (LO : List (View.Piece (Elt F) S512x2048 .f32)), { LS : List (View.Piece (Elt F) S512x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc2__down_kernel i arg2 harg2 arg3 harg3 arg4 harg4 arg5 harg5) K } := by
  refine ⟨?_, ?_, fun E K => ?run⟩
  case run =>
    simp only [cc2__down_kernel_eq_skeleton]; unfold cc2__down_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

/-! ## The cases' pieces cover their buffers, and what they read back as -/

theorem scoverA (c : Dev nD) (i : grid2.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : cond2_0 i) (hc1 : ¬cond2_1 i) (x0 : Vec F S512x512 .bf16) (x1 : Vec F S2048x512 .bf16) (y : S512x2048.Idx) :
    ∃ pc ∈ (downRunA c i arg2 harg2 arg3 harg3 arg4 harg4 arg5 harg5 hc0 hc1 x0 x1).1, y ∈ pc.1.set :=
  View.cover_of_tiledL (downRunA c i arg2 harg2 arg3 harg3 arg4 harg4 arg5 harg5 hc0 hc1 x0 x1).1 S512x2048.size (by sl_kernel_rfl) y
/-- The scratch after a point with k = 0. -/
def soutA (c : Dev nD) (i : grid2.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : cond2_0 i) (hc1 : ¬cond2_1 i) (x0 : Vec F S512x512 .bf16) (x1 : Vec F S2048x512 .bf16) : Vec F S512x2048 .f32 :=
  VS2.read (Elt F) (VS2.writes (Elt F) VS2.junk (downRunA c i arg2 harg2 arg3 harg3 arg4 harg4 arg5 harg5 hc0 hc1 x0 x1).1)

theorem scoverB (c : Dev nD) (i : grid2.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond2_0 i) (hc1 : ¬cond2_1 i) (x0 : Vec F S512x512 .bf16) (x1 : Vec F S2048x512 .bf16) (xs : Vec F S512x2048 .f32) (y : S512x2048.Idx) :
    ∃ pc ∈ (downRunB c i arg2 harg2 arg3 harg3 arg4 harg4 arg5 harg5 hc0 hc1 x0 x1 xs).1, y ∈ pc.1.set :=
  View.cover_of_tiledL (downRunB c i arg2 harg2 arg3 harg3 arg4 harg4 arg5 harg5 hc0 hc1 x0 x1 xs).1 S512x2048.size (by sl_kernel_rfl) y
/-- The scratch after a point with 0 < k < 10, over what the point before left. -/
def soutB (c : Dev nD) (i : grid2.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond2_0 i) (hc1 : ¬cond2_1 i) (x0 : Vec F S512x512 .bf16) (x1 : Vec F S2048x512 .bf16) (xs : Vec F S512x2048 .f32) : Vec F S512x2048 .f32 :=
  VS2.read (Elt F) (VS2.writes (Elt F) VS2.junk (downRunB c i arg2 harg2 arg3 harg3 arg4 harg4 arg5 harg5 hc0 hc1 x0 x1 xs).1)

theorem scoverC (c : Dev nD) (i : grid2.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond2_0 i) (hc1 : cond2_1 i) (x0 : Vec F S512x512 .bf16) (x1 : Vec F S2048x512 .bf16) (xs : Vec F S512x2048 .f32) (y : S512x2048.Idx) :
    ∃ pc ∈ (downRunC c i arg2 harg2 arg3 harg3 arg4 harg4 arg5 harg5 hc0 hc1 x0 x1 xs).2.1, y ∈ pc.1.set :=
  View.cover_of_tiledL (downRunC c i arg2 harg2 arg3 harg3 arg4 harg4 arg5 harg5 hc0 hc1 x0 x1 xs).2.1 S512x2048.size (by sl_kernel_rfl) y
/-- The scratch after a point with k = 10, over what the point before left. -/
def soutC (c : Dev nD) (i : grid2.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond2_0 i) (hc1 : cond2_1 i) (x0 : Vec F S512x512 .bf16) (x1 : Vec F S2048x512 .bf16) (xs : Vec F S512x2048 .f32) : Vec F S512x2048 .f32 :=
  VS2.read (Elt F) (VS2.writes (Elt F) VS2.junk (downRunC c i arg2 harg2 arg3 harg3 arg4 harg4 arg5 harg5 hc0 hc1 x0 x1 xs).2.1)
theorem ocoverC (c : Dev nD) (i : grid2.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond2_0 i) (hc1 : cond2_1 i) (x0 : Vec F S512x512 .bf16) (x1 : Vec F S2048x512 .bf16) (xs : Vec F S512x2048 .f32) (y : S512x2048.Idx) :
    ∃ pc ∈ (downRunC c i arg2 harg2 arg3 harg3 arg4 harg4 arg5 harg5 hc0 hc1 x0 x1 xs).1, y ∈ pc.1.set :=
  View.cover_of_tiledL (downRunC c i arg2 harg2 arg3 harg3 arg4 harg4 arg5 harg5 hc0 hc1 x0 x1 xs).1 S512x2048.size (by sl_kernel_rfl) y
/-- The output block after a point with k = 10. -/
def ooutC (c : Dev nD) (i : grid2.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond2_0 i) (hc1 : cond2_1 i) (x0 : Vec F S512x512 .bf16) (x1 : Vec F S2048x512 .bf16) (xs : Vec F S512x2048 .f32) : Vec F S512x2048 .f32 :=
  VO2.read (Elt F) (VO2.writes (Elt F) VO2.junk (downRunC c i arg2 harg2 arg3 harg3 arg4 harg4 arg5 harg5 hc0 hc1 x0 x1 xs).1)

/-! ## What the scratch and the output block hold after each point -/

/-- After point n: the output block (meaningful at k = 10 only; elsewhere a placeholder nothing consults) and the
    scratch, by the case of n and, off k = 0, over what point n − 1 left in the scratch. -/
def outsAt2 (c : Dev nD) : (n : ℕ) → n < cfg2.N → Vec F S512x2048 .f32 × Vec F S512x2048 .f32
  | 0, hn => (VO2.read (Elt F) VO2.junk,
      soutA c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 11 = 0 then
      if h1 : (n + 1) % 11 = 10 then
        False.elim (by omega)
      else
        (VO2.read (Elt F) VO2.junk,
          soutA c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 11 = 10 then
        (ooutC c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2,
          soutC c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (VO2.read (Elt F) VO2.junk,
          soutB c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- `outsAt2` at a point with k = 0. -/
theorem outsAt2_A (c : Dev nD) (t : Fin cfg2.N) (h0 : t.val % 11 = 0) (h1 : ¬t.val % 11 = 10) :
    outsAt2 V c t.val t.isLt = (VO2.read (Elt F) VO2.junk,
      soutA c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

/-- `outsAt2` at a point with 0 < k < 10, over what the point before left. -/
theorem outsAt2_B (c : Dev nD) (t : Fin cfg2.N) (h0 : ¬t.val % 11 = 0) (h1 : ¬t.val % 11 = 10) :
    outsAt2 V c t.val t.isLt = (VO2.read (Elt F) VO2.junk,
      soutB c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point with k = 10, over what the point before left. -/
theorem outsAt2_C (c : Dev nD) (t : Fin cfg2.N) (h0 : ¬t.val % 11 = 0) (h1 : t.val % 11 = 10) :
    outsAt2 V c t.val t.isLt = (ooutC c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
      soutC c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The scoped buffers of the other two launches, each at some contents: untouched here. -/
def rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- Before point n: the other launches' scoped buffers, the scratch (at anything before the first point, then at what
    the point before left), and the generator register at some state. -/
def PhiS (c : Dev nD) : (n : ℕ) → n ≤ cfg2.N → sProp 𝕄
  | 0, _ => iprop(rest2 (F := F) c ∗ (∃ d, owns (c : Thread nD τ) scM2 fullShare d) ∗ (∃ r, prngReg c r))
  | n + 1, hn => iprop(rest2 (F := F) c ∗ owns (c : Thread nD τ) scM2 fullShare ((outsAt2 V c n hn).2) ∗ (∃ r, prngReg c r))

theorem PhiS_zero (c : Dev nD) (n : ℕ) (h : n ≤ cfg2.N) (hz : n = 0) :
    PhiS V c n h = iprop(rest2 (F := F) c ∗ (∃ d, owns (c : Thread nD τ) scM2 fullShare d) ∗ (∃ r, prngReg c r)) := by
  subst hz; rfl
theorem PhiS_succ (c : Dev nD) (n : ℕ) (hn : n < cfg2.N) :
    PhiS V c (n + 1) hn = iprop(rest2 (F := F) c ∗ owns (c : Thread nD τ) scM2 fullShare ((outsAt2 V c n hn).2) ∗ (∃ r, prngReg c r)) := rfl
theorem PhiS_pos (c : Dev nD) (n : ℕ) (h : n ≤ cfg2.N) (hz : n ≠ 0) :
    PhiS V c n h = iprop(rest2 (F := F) c ∗ owns (c : Thread nD τ) scM2 fullShare ((outsAt2 V c (n - 1) (by omega)).2) ∗ (∃ r, prngReg c r)) := by
  cases n with
  | zero => exact absurd rfl hz
  | succ n => rfl

/-- What the launch hands the kernel (every scoped buffer no window stages at some contents, and the generator
    register) is the invariant before the first point, -/
theorem PhiA_split (c : Dev nD) :
    (Pipeline.ΦA spec2 c : sProp 𝕄) ⊢ iprop(rest2 (F := F) c ∗ (∃ d, owns (c : Thread nD τ) scM2 fullShare d) ∗ (∃ r, prngReg c r)) := by
  unfold Pipeline.ΦA rest2; rw [scopedRest2_eq]; simp only [scM2, owns_whole]
  iintro ⟨⟨B0, B1, B2, B3, B4, B5, B6, B7, B8, B9, B10, B11, B12, HS⟩, Hg⟩
  isplitl [B0 B1 B2 B3 B4 B5 B6 B7 B8 B9 B10 B11 B12]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    iexact B12
  isplitl [HS]; · iexact HS
  iexact Hg

/-- and the other way round. -/
theorem PhiA_join (c : Dev nD) :
    iprop(rest2 (F := F) c ∗ (∃ d, owns (c : Thread nD τ) scM2 fullShare d) ∗ (∃ r, prngReg c r)) ⊢ (Pipeline.ΦA spec2 c : sProp 𝕄) := by
  unfold Pipeline.ΦA rest2; rw [scopedRest2_eq]; simp only [scM2, owns_whole]
  iintro ⟨⟨B0, B1, B2, B3, B4, B5, B6, B7, B8, B9, B10, B11, B12⟩, HS, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    iexact HS
  iexact Hg

/-- Forgetting what the scratch holds. -/
theorem PhiS_weaken (c : Dev nD) (x : Vec F S512x2048 .f32) :
    (iprop(rest2 (F := F) c ∗ owns (c : Thread nD τ) scM2 fullShare x ∗ (∃ r, prngReg c r)) : sProp 𝕄)
      ⊢ iprop(rest2 (F := F) c ∗ (∃ d, owns (c : Thread nD τ) scM2 fullShare d) ∗ (∃ r, prngReg c r)) := by
  iintro ⟨HR, HS, Hg⟩
  isplitl [HR]; · iexact HR
  isplitl [HS]; · iexists _; iexact HS
  iexact Hg

/-! ## The per-point data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS_castSucc (c : Dev nD) (t : Fin cfg2.N) :
    (dat2 V c).Φ t.castSucc = PhiS V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS V c (t.val + 1) t.isLt from rfl, PhiS_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 176 := lt_of_lt_of_eq t.isLt (show cfg2.N = 176 from N_2)
  by_cases h0 : t.val % 11 = 0
  · have h1 : ¬t.val % 11 = 10 := by omega
    rw [Dat.leavesExact_idle (dat2 V c) 2 t (idleAt2_2 t (fun h => h1 ((hcond2_1 t).mp h))) (noFlush2_2 t (fun h => h1 ((hcond2_1 t).mp h)))]
    rw [outsAt2_A V c t h0 h1]
    unfold soutA; (try dsimp only)
    by_cases hz : t.val = 0
    · rw [PhiS_castSucc V c t, PhiS_zero V c _ _ hz]
      iintro ⟨⟨HR, HS, Hg⟩, Ho, ⟨%d0, H0⟩, ⟨%d1, H1⟩, ⟨%d2, H2⟩⟩
      iapply ((downRunA c (grid2.coords t) _ _ _ _ _ _ _ _ ((hcond2_0 t).mpr h0) (fun h => h1 ((hcond2_1 t).mp h)) (iblk2 V c 0 t) (iblk2 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HR HS Hg]
      · isplitl [HR]; · iexact HR
        isplitl [HS]
        · unfold owns; iexists _; isplitr
          swap; · iexact HS
          ipureintro; exact View.read_writes_of_cover _ _ _ _ _ (scoverA c _ _ _ _ _ _ _ _ _ _ _ _ _)
        iexact Hg
      isplitl [Ho]; · iexact Ho
      isplitl [H0]; · iexact H0
      isplitl [H1]; · iexact H1
      iexists _; iexact H2
    · rw [PhiS_castSucc V c t, PhiS_pos V c _ _ hz]
      iintro ⟨⟨HR, HS, Hg⟩, Ho, ⟨%d0, H0⟩, ⟨%d1, H1⟩, ⟨%d2, H2⟩⟩
      iapply ((downRunA c (grid2.coords t) _ _ _ _ _ _ _ _ ((hcond2_0 t).mpr h0) (fun h => h1 ((hcond2_1 t).mp h)) (iblk2 V c 0 t) (iblk2 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HR HS Hg]
      · isplitl [HR]; · iexact HR
        isplitl [HS]
        · unfold owns; iexists _; isplitr
          swap; · iexact HS
          ipureintro; exact View.read_writes_of_cover _ _ _ _ _ (scoverA c _ _ _ _ _ _ _ _ _ _ _ _ _)
        iexact Hg
      isplitl [Ho]; · iexact Ho
      isplitl [H0]; · iexact H0
      isplitl [H1]; · iexact H1
      iexists _; iexact H2
  · have hz : t.val ≠ 0 := by intro hz; rw [hz] at h0; exact h0 (Nat.zero_mod _)
    by_cases h1 : t.val % 11 = 10
    · rw [show (dat2 V c).leavesExact 2 t = owns (c : Thread nD τ) (ms2_2 t) fullShare ((dat2 V c).after 2 t) from by
        unfold Dat.leavesExact; rw [liveAt2_2 t ((hcond2_1 t).mpr h1)], after2_2]
      rw [outsAt2_C V c t h0 h1]
      unfold ooutC soutC; (try dsimp only)
      rw [PhiS_castSucc V c t, PhiS_pos V c _ _ hz]
      iintro ⟨⟨HR, HS, Hg⟩, Ho, ⟨%d0, H0⟩, ⟨%d1, H1⟩, ⟨%d2, H2⟩⟩
      iapply ((downRunC c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HR HS Hg]
      · isplitl [HR]; · iexact HR
        isplitl [HS]
        · unfold owns; iexists _; isplitr
          swap; · iexact HS
          ipureintro; exact View.read_writes_of_cover _ _ _ _ _ (scoverC c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (ocoverC c _ _ _ _ _ _ _ _ _ _ _ _ _ _)
    · rw [Dat.leavesExact_idle (dat2 V c) 2 t (idleAt2_2 t (fun h => h1 ((hcond2_1 t).mp h))) (noFlush2_2 t (fun h => h1 ((hcond2_1 t).mp h)))]
      rw [outsAt2_B V c t h0 h1]
      unfold soutB; (try dsimp only)
      rw [PhiS_castSucc V c t, PhiS_pos V c _ _ hz]
      iintro ⟨⟨HR, HS, Hg⟩, Ho, ⟨%d0, H0⟩, ⟨%d1, H1⟩, ⟨%d2, H2⟩⟩
      iapply ((downRunB c (grid2.coords t) _ _ _ _ _ _ _ _ (fun h => h0 ((hcond2_0 t).mp h)) (fun h => h1 ((hcond2_1 t).mp h)) (iblk2 V c 0 t) (iblk2 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HR HS Hg]
      · isplitl [HR]; · iexact HR
        isplitl [HS]
        · unfold owns; iexists _; isplitr
          swap; · iexact HS
          ipureintro; exact View.read_writes_of_cover _ _ _ _ _ (scoverB c _ _ _ _ _ _ _ _ _ _ _ _ _ _)
        iexact Hg
      isplitl [Ho]; · iexact Ho
      isplitl [H0]; · iexact H0
      isplitl [H1]; · iexact H1
      iexists _; iexact H2

/-- The pipeline rule's obligation on the body, at every point. -/
theorem body_obligation2 (c : Dev nD) : BodyObligation (dat2 (F := F) V c) (defs₀ (F := F)) Variants.none () Set.univ := fun t => by
  rw [bigSep_W2, bigSep_W2]
  exact sound_body2 V c t

/-- The invariant's two ends. -/
theorem hin2 (c : Dev nD) : Pipeline.ΦA spec2 c ⊢ (dat2 V c).Φ 0 := by
  rw [show (dat2 V c).Φ 0 = PhiS V c 0 (Nat.zero_le _) from rfl, PhiS_zero V c 0 _ rfl]
  exact PhiA_split c

theorem hout2 (c : Dev nD) : (dat2 V c).Φ (Fin.last cfg2.N) ⊢ Pipeline.ΦA spec2 c := by
  have hne : (Fin.last cfg2.N).val ≠ 0 := by rw [Fin.val_last]; have : cfg2.N = 176 := N_2; omega
  rw [show (dat2 V c).Φ (Fin.last cfg2.N) = PhiS V c (Fin.last cfg2.N).val (Nat.le_of_lt_succ (Fin.last cfg2.N).isLt) from rfl, PhiS_pos V c _ _ hne]
  exact (PhiS_weaken c _).trans (PhiA_join c)

end

end Cert.Kernel.Mlp

end
-- ==== Proof.K.Run.lean ====
/-
  The whole program: four casts on the host, then the three launches one after the other, at any float instance.

  The contents of the buffers are followed from segment to segment: after the casts; after the rotation (its result
  array at what the pipeline's write-backs leave, everything else as before); after the gate/up launch; after the down
  launch. Each launch is entered with every unscoped buffer held at the contents the segment before left. Read off the
  last contents: the result buffer holds the third launch's folded write-backs, and each argument holds what it was
  launched with, no cast and no launch writing it.
-/
import proofs.«165255_j59047210385427_1_alg».proof.Proof.Gen.Kernel.Launch
import proofs.«165255_j59047210385427_1_alg».proof.Proof.Gen.Kernel.Skeleton
import proofs.«165255_j59047210385427_1_alg».proof.Proof.Gen.Kernel.Points
import proofs.«165255_j59047210385427_1_alg».proof.Proof.K.Rot
import proofs.«165255_j59047210385427_1_alg».proof.Proof.K.GateUp
import proofs.«165255_j59047210385427_1_alg».proof.Proof.K.Down
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Mlp

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => m ((c : Dev nD), b)
/-- After the four casts. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At launch 0's exit: its arrays at what the pipeline leaves (an input as entered, the output with its write-backs
    folded in), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At launch 1's exit: its arrays at what the pipeline leaves (an input as entered, the output with its write-backs
    folded in), every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- At launch 2's exit: its arrays at what the pipeline leaves (an input as entered, the output with its write-backs
    folded in), every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg4) := rfl

/-- The result buffer ends at the third launch's folded write-backs. -/
theorem W4_main_v6 (c : Dev nD) : W4 m c (Proc.devRef .tc main_v6) = (dat2 (V3 m) c).arrAt 2 cfg2.N := W4_arr m c 2

/-! ## The proof data of the three launches, and what rides along -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- Beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, apart from the core owing nothing. -/
abbrev Tₙ (c : Dev nD) : sProp 𝕄 := iprop(StableHlo.held (c : Thread nD τ) (Pipeline.ucRefs τ sig) (W4 m c) ∗ ∃ r, prngReg c r)

/-! ## The launches as segments -/

/-- What the third launch's entry hands its kernel makes the class invariant, -/
theorem phiA_in2 (c : Dev nD) :
    (iprop((∃ r, prngReg c r) ∗ Pipeline.prefHeld (pcfgs (F := F) 2).pre c (fun _ => fullShare) (adm (F := F) 2).1
        ∗ Pipeline.scopedRest (Pipeline.pin (pcfgs (F := F)) adm 2).spec c) : sProp 𝕄) ⊢ Pipeline.ΦA spec2 c := by
  unfold Pipeline.ΦA
  iintro ⟨Hp, -, Hr⟩
  isplitl [Hr]; · iexact Hr
  iexact Hp
/-- and the class invariant gives it back at the exit. -/
theorem phiA_out2 (c : Dev nD) :
    (Pipeline.ΦA spec2 c : sProp 𝕄) ⊢ iprop((∃ r, prngReg c r) ∗ Pipeline.ownSems0 (fun k : PEmpty => k.elim) c
        ∗ Pipeline.scopedRest (Pipeline.pin (pcfgs (F := F)) adm 2).spec c) := by
  rw [Pipeline.ownSems0_none]; unfold Pipeline.ΦA
  iintro ⟨Hr, Hp⟩
  isplitl [Hp]; · iexact Hp
  isplitr; · iempintro
  iexact Hr

set_option backward.isDefEq.respectTransparency.types false in
/-- Launch 0 as a segment: entered with every unscoped buffer at `W1`, left with them at `W2`. Its arrays are split
    out of the unscoped buffers at entry and put back at their final contents at exit; the generator register goes
    into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment: entered with every unscoped buffer at `W2`, left with them at `W3`. Its arrays are split
    out of the unscoped buffers at entry and put back at their final contents at exit; the generator register goes
    into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 as a segment: entered with every unscoped buffer at `W3`, left with them at `W4`. Its arrays are split
    out of the unscoped buffers at entry and put back at their final contents at exit; the generator register goes
    into the invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_in2 c).trans (show Pipeline.ΦA spec2 c ⊢ (pdats m 2 c).Φ 0 from hin2 (V3 m) c)
  hout c := (show (pdats m 2 c).Φ (Fin.last _) ⊢ Pipeline.ΦA spec2 c from hout2 (V3 m) c).trans (phiA_out2 c)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh' (W0 m)),
    .region (reg0 m),
    .region (reg1 m),
    .region (reg2 m) ]
theorem main_run (c : Dev nD) : main (F := F) c = Pipeline.Seg.run (segs m) := (main_chain c).trans (by chain_rfl)

set_option backward.isDefEq.respectTransparency.types false in
/-- Every weakly fair execution of the program from memory m with zero counters terminates, nothing faulting, and in
    every final state the result buffer holds the third launch's folded write-backs and each argument what it was
    launched with. -/
theorem run_main : θ_run defs (onTc (τ := τ) (main (F := F))) ⟨m, fun _ => 0, ρ⟩ (fun r => ∀ c : Dev nD,
      r.2.mem ((c.tc : Thread nD τ).loc main_v6) = (dat2 (V3 m) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v6 (by decide))).trans (W4_main_v6 m c),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_main m ρ)

end Cert.Kernel.Mlp

end
-- ==== Proof.KI.Rot.lean ====
/-
  The first launch (the rotation x · Hᵀ), at any float instance, over the contents V the launch finds in the buffers.

  Its grid has 16 points; point t stages rows 512 t … 512 t + 511 of x (window 0), the whole of H (window 1, fetched once
  and kept), and writes rows 512 t … of the result (window 2). The body loads the two input blocks, multiplies, and
  stores the whole output block once. This module states what the output block holds after the body (the one stored piece
  over the two loaded blocks), proves the body's triple, and packages the per-point data the pipeline rule asks for.
-/
import proofs.«165255_j59047210385427_1_alg».proof.Proof.Gen.KernelIdeal.Launch
import proofs.«165255_j59047210385427_1_alg».proof.Proof.Gen.KernelIdeal.Skeleton
import proofs.«165255_j59047210385427_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Mlp

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetches it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 512 × 2048 block and the whole 2048 × 2048 block, as rectangles. -/
abbrev rX0 : Rect S512x2048 := Rect.unit (s := S512x2048) ![0, 0] S512x2048.size inb_S512x2048_S512x2048_0_0
abbrev rH0 : Rect S2048x2048 := Rect.unit (s := S2048x2048) ![0, 0] S2048x2048.size inb_S2048x2048_S2048x2048_0_0

/-- What the body leaves in the output block: its one store, of the product of the two loaded blocks. -/
def rotOut (x0 : Vec F S512x2048 .f32) (x1 : Vec F S2048x2048 .bf16) : Vec F S512x2048 .bf16 :=
  View.canon [⟨rX0, k0_pay1 (View.ld x0 rX0) (View.ld x1 rH0)⟩]

/-- The one store covers the block. -/
theorem rotCover (p0 : Vec F S512x2048 .bf16) (y : S512x2048.Idx) :
    ∃ pc ∈ ([⟨rX0, p0⟩] : List (View.Piece (Elt F) S512x2048 .bf16)), y ∈ pc.1.set :=
  View.cover_of_tiled [⟨rX0, p0⟩] S512x2048.size (by rfl) y

set_option maxHeartbeats 1000000 in
/-- The body on whole staging buffers: the inputs keep their contents, the output ends at `rotOut` of them. -/
theorem sound_rot (c : Dev nD) (E : Set ℕ) (i : grid0.Coords) (arg1 : Memref sig .tc .vmem S512x2048 .f32) (harg1 : arg1.IsWhole)
    (arg2 : Memref sig .tc .vmem S2048x2048 .bf16) (harg2 : arg2.IsWhole) (arg3 : Memref sig .tc .vmem S512x2048 .bf16) (harg3 : arg3.IsWhole)
    (x0 : Vec F S512x2048 .f32) (x1 : Vec F S2048x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (rotOut x0 x1)) -∗ K ⟨⟩))
      ⊢ wp frame (wpE (defs₀ (F := F)) Variants.none c none) E (cc0__rot_kernel i arg1 harg1 arg2 harg2 arg3 harg3) K := by
  simp only [cc0__rot_kernel_eq_skeleton]; unfold cc0__rot_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (rotCover _)

/-- The per-point data of the first launch on core c: the arrays as found; after the body each input buffer at its
    block and the output buffer at `rotOut` of the input blocks; nothing carried between points; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => rotOut (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = rotOut (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_rot c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's obligation on the body, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Mlp

end
-- ==== Proof.KI.GateUp.lean ====
/-
  The second launch (gate and up projections and their gated product), at any float instance, over the contents V the
  launch finds in the buffers.

  Its grid is 16 × 11; point (i, j) stages rows 512 i … of the rotated activations (window 0), rows 512 j … of the gate
  weights (window 1) and of the up weights (window 2), and writes the 512 × 512 block (i, j) of the hidden activations
  (window 3). The body loads the three input blocks, forms s = xr · Gᵀ and u = xr · Uᵀ on the block, and stores
  (s · logistic s) · u once, covering the output block.
-/
import proofs.«165255_j59047210385427_1_alg».proof.Proof.Gen.KernelIdeal.Launch
import proofs.«165255_j59047210385427_1_alg».proof.Proof.Gen.KernelIdeal.Skeleton
import proofs.«165255_j59047210385427_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Mlp

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the point fetches it or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole 512 × 2048 block and the whole 512 × 512 block, as rectangles. -/
abbrev rX1 : Rect S512x2048 := Rect.unit (s := S512x2048) ![0, 0] S512x2048.size inb_S512x2048_S512x2048_0_0
abbrev rO1 : Rect S512x512 := Rect.unit (s := S512x512) ![0, 0] S512x512.size inb_S512x512_S512x512_0_0

/-- What the body leaves in the output block: its one store, of the gated product over the three loaded blocks. -/
def guOut (x0 x1 x2 : Vec F S512x2048 .bf16) : Vec F S512x512 .bf16 :=
  View.canon [⟨rO1, k1_pay1 (View.ld x0 rX1) (View.ld x1 rX1) (View.ld x2 rX1)⟩]

/-- The one store covers the block. -/
theorem guCover (p0 : Vec F S512x512 .bf16) (y : S512x512.Idx) :
    ∃ pc ∈ ([⟨rO1, p0⟩] : List (View.Piece (Elt F) S512x512 .bf16)), y ∈ pc.1.set :=
  View.cover_of_tiled [⟨rO1, p0⟩] S512x512.size (by rfl) y

set_option maxHeartbeats 1000000 in
/-- The body on whole staging buffers: the inputs keep their contents, the output ends at `guOut` of them. -/
theorem sound_gu (c : Dev nD) (E : Set ℕ) (i : grid1.Coords) (arg2 : Memref sig .tc .vmem S512x2048 .bf16) (harg2 : arg2.IsWhole)
    (arg3 : Memref sig .tc .vmem S512x2048 .bf16) (harg3 : arg3.IsWhole) (arg4 : Memref sig .tc .vmem S512x2048 .bf16) (harg4 : arg4.IsWhole)
    (arg5 : Memref sig .tc .vmem S512x512 .bf16) (harg5 : arg5.IsWhole)
    (x0 x1 x2 : Vec F S512x2048 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (guOut x0 x1 x2)) -∗ K ⟨⟩))
      ⊢ wp frame (wpE (defs₀ (F := F)) Variants.none c none) E (cc1__gu_kernel i arg2 harg2 arg3 harg3 arg4 harg4 arg5 harg5) K := by
  simp only [cc1__gu_kernel_eq_skeleton]; unfold cc1__gu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (guCover _)

/-- The per-point data of the second launch on core c: the arrays as found; after the body each input buffer at its
    block and the output buffer at `guOut` of the input blocks; nothing carried between points; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => guOut (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = guOut (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_gu c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's obligation on the body, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Mlp

end
-- ==== Proof.KI.Down.lean ====
/-
  The third launch (the down projection h · Dᵀ, accumulated over the inner dimension), at any float instance, over the
  contents V the launch finds in the buffers.

  Its grid is 16 × 11; point (i, k) stages the 512 × 512 block (i, k) of the hidden activations (window 0) and columns
  512 k … of the down weights (window 1). A scratch block of 512 × 2048 is carried from point to point: at k = 0 it is
  reset to zero; at every k the product of the two staged blocks is added to it; at k = 10 it is copied into the output
  block (window 2: rows 512 i … of the result), which is written back at those points only and left untouched at the
  others. So the body has three control cases by k (first, middle, last), and what the scratch holds after a point is
  defined by recursion on the point. The invariant between points holds the scratch at that content, beside the scoped
  buffers of the other two launches, which this launch never touches.
-/
import proofs.«165255_j59047210385427_1_alg».proof.Proof.Gen.KernelIdeal.Launch
import proofs.«165255_j59047210385427_1_alg».proof.Proof.Gen.KernelIdeal.Skeleton
import proofs.«165255_j59047210385427_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Mlp

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The two branch conditions, in closed form over the grid -/

/-- k = 0: the scratch is reset. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 11 = 0 :=
  (by decide +kernel : ∀ t : Fin grid2.N, cond2_0 (grid2.coords t) ↔ t.val % 11 = 0)
/-- k = 10: the scratch is copied out. -/
abbrev cond2_1 (i : grid2.Coords) : Prop := k2_cond2 i = 1#1
theorem hcond2_1 : ∀ t : Fin cfg2.N, cond2_1 (grid2.coords t) ↔ t.val % 11 = 10 :=
  (by decide +kernel : ∀ t : Fin grid2.N, cond2_1 (grid2.coords t) ↔ t.val % 11 = 10)

/-- The input windows are never idle; the output window is idle, and not written back, exactly off k = 10. -/
theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-! ## The staging and scratch memrefs at a point -/

abbrev ms2_0 (t : Fin cfg2.N) : Memref sig .tc .vmem S512x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x2048 .f32 := win2_2.stage (cfg2.slots t 2)
abbrev hs2_2 (t : Fin cfg2.N) : (ms2_2 t).IsWhole := hstage2_2 ((cfg2.slots t 2).cast nbuf2_2)
/-- The carried scratch, as a memref and as a view. -/
abbrev scM2 : Memref sig .tc .vmem S512x2048 .f32 := Memref.whole cc2_scratch0
abbrev VS2 : View sig .tc .vmem S512x2048 .f32 := scM2.view
/-- One staging buffer of the output window, through which its contents are stated. -/
abbrev VO2 : View sig .tc .vmem S512x2048 .f32 := (Memref.whole cc2_stg2_0 : Memref sig .tc .vmem S512x2048 .f32).view

/-! ## The body's three cases: what its stores leave, found by running it -/

set_option maxHeartbeats 1000000 in
/-- k = 0 (and not 10): the scratch, found at anything, ends with the listed pieces written; the output buffer is
    handed back untouched. -/
noncomputable def downRunA (c : Dev nD) (i : grid2.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : cond2_0 i) (hc1 : ¬cond2_1 i)
    (x0 : Vec F S512x512 .bf16) (x1 : Vec F S2048x512 .bf16) :
    { LS : List (View.Piece (Elt F) S512x2048 .f32) //
      ∀ (xi : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare xi
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc2__down_kernel i arg2 harg2 arg3 harg3 arg4 harg4 arg5 harg5) K } := by
  refine ⟨?_, fun xi E K => ?run⟩
  case run =>
    simp only [cc2__down_kernel_eq_skeleton]; unfold cc2__down_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- 0 < k < 10: the scratch, found at what the point before left, ends with the listed pieces written; the output
    buffer is handed back untouched. -/
noncomputable def downRunB (c : Dev nD) (i : grid2.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond2_0 i) (hc1 : ¬cond2_1 i)
    (x0 : Vec F S512x512 .bf16) (x1 : Vec F S2048x512 .bf16) (xs : Vec F S512x2048 .f32) :
    { LS : List (View.Piece (Elt F) S512x2048 .f32) //
      ∀ (xi : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare xi
            ∗ owns (c : Thread nD τ) arg5 fullShare xs
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc2__down_kernel i arg2 harg2 arg3 harg3 arg4 harg4 arg5 harg5) K } := by
  refine ⟨?_, fun xi E K => ?run⟩
  case run =>
    simp only [cc2__down_kernel_eq_skeleton]; unfold cc2__down_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- k = 10: the scratch, found at what the point before left, and the output buffer, found at anything, each end with
    the listed pieces written. -/
noncomputable def downRunC (c : Dev nD) (i : grid2.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond2_0 i) (hc1 : cond2_1 i)
    (x0 : Vec F S512x512 .bf16) (x1 : Vec F S2048x512 .bf16) (xs : Vec F S512x2048 .f32) :
    Σ' (LO : List (View.Piece (Elt F) S512x2048 .f32)), { LS : List (View.Piece (Elt F) S512x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc2__down_kernel i arg2 harg2 arg3 harg3 arg4 harg4 arg5 harg5) K } := by
  refine ⟨?_, ?_, fun E K => ?run⟩
  case run =>
    simp only [cc2__down_kernel_eq_skeleton]; unfold cc2__down_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

/-! ## The cases' pieces cover their buffers, and what they read back as -/

theorem scoverA (c : Dev nD) (i : grid2.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : cond2_0 i) (hc1 : ¬cond2_1 i) (x0 : Vec F S512x512 .bf16) (x1 : Vec F S2048x512 .bf16) (y : S512x2048.Idx) :
    ∃ pc ∈ (downRunA c i arg2 harg2 arg3 harg3 arg4 harg4 arg5 harg5 hc0 hc1 x0 x1).1, y ∈ pc.1.set :=
  View.cover_of_tiledL (downRunA c i arg2 harg2 arg3 harg3 arg4 harg4 arg5 harg5 hc0 hc1 x0 x1).1 S512x2048.size (by sl_kernel_rfl) y
/-- The scratch after a point with k = 0. -/
def soutA (c : Dev nD) (i : grid2.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : cond2_0 i) (hc1 : ¬cond2_1 i) (x0 : Vec F S512x512 .bf16) (x1 : Vec F S2048x512 .bf16) : Vec F S512x2048 .f32 :=
  VS2.read (Elt F) (VS2.writes (Elt F) VS2.junk (downRunA c i arg2 harg2 arg3 harg3 arg4 harg4 arg5 harg5 hc0 hc1 x0 x1).1)

theorem scoverB (c : Dev nD) (i : grid2.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond2_0 i) (hc1 : ¬cond2_1 i) (x0 : Vec F S512x512 .bf16) (x1 : Vec F S2048x512 .bf16) (xs : Vec F S512x2048 .f32) (y : S512x2048.Idx) :
    ∃ pc ∈ (downRunB c i arg2 harg2 arg3 harg3 arg4 harg4 arg5 harg5 hc0 hc1 x0 x1 xs).1, y ∈ pc.1.set :=
  View.cover_of_tiledL (downRunB c i arg2 harg2 arg3 harg3 arg4 harg4 arg5 harg5 hc0 hc1 x0 x1 xs).1 S512x2048.size (by sl_kernel_rfl) y
/-- The scratch after a point with 0 < k < 10, over what the point before left. -/
def soutB (c : Dev nD) (i : grid2.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond2_0 i) (hc1 : ¬cond2_1 i) (x0 : Vec F S512x512 .bf16) (x1 : Vec F S2048x512 .bf16) (xs : Vec F S512x2048 .f32) : Vec F S512x2048 .f32 :=
  VS2.read (Elt F) (VS2.writes (Elt F) VS2.junk (downRunB c i arg2 harg2 arg3 harg3 arg4 harg4 arg5 harg5 hc0 hc1 x0 x1 xs).1)

theorem scoverC (c : Dev nD) (i : grid2.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond2_0 i) (hc1 : cond2_1 i) (x0 : Vec F S512x512 .bf16) (x1 : Vec F S2048x512 .bf16) (xs : Vec F S512x2048 .f32) (y : S512x2048.Idx) :
    ∃ pc ∈ (downRunC c i arg2 harg2 arg3 harg3 arg4 harg4 arg5 harg5 hc0 hc1 x0 x1 xs).2.1, y ∈ pc.1.set :=
  View.cover_of_tiledL (downRunC c i arg2 harg2 arg3 harg3 arg4 harg4 arg5 harg5 hc0 hc1 x0 x1 xs).2.1 S512x2048.size (by sl_kernel_rfl) y
/-- The scratch after a point with k = 10, over what the point before left. -/
def soutC (c : Dev nD) (i : grid2.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond2_0 i) (hc1 : cond2_1 i) (x0 : Vec F S512x512 .bf16) (x1 : Vec F S2048x512 .bf16) (xs : Vec F S512x2048 .f32) : Vec F S512x2048 .f32 :=
  VS2.read (Elt F) (VS2.writes (Elt F) VS2.junk (downRunC c i arg2 harg2 arg3 harg3 arg4 harg4 arg5 harg5 hc0 hc1 x0 x1 xs).2.1)
theorem ocoverC (c : Dev nD) (i : grid2.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond2_0 i) (hc1 : cond2_1 i) (x0 : Vec F S512x512 .bf16) (x1 : Vec F S2048x512 .bf16) (xs : Vec F S512x2048 .f32) (y : S512x2048.Idx) :
    ∃ pc ∈ (downRunC c i arg2 harg2 arg3 harg3 arg4 harg4 arg5 harg5 hc0 hc1 x0 x1 xs).1, y ∈ pc.1.set :=
  View.cover_of_tiledL (downRunC c i arg2 harg2 arg3 harg3 arg4 harg4 arg5 harg5 hc0 hc1 x0 x1 xs).1 S512x2048.size (by sl_kernel_rfl) y
/-- The output block after a point with k = 10. -/
def ooutC (c : Dev nD) (i : grid2.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond2_0 i) (hc1 : cond2_1 i) (x0 : Vec F S512x512 .bf16) (x1 : Vec F S2048x512 .bf16) (xs : Vec F S512x2048 .f32) : Vec F S512x2048 .f32 :=
  VO2.read (Elt F) (VO2.writes (Elt F) VO2.junk (downRunC c i arg2 harg2 arg3 harg3 arg4 harg4 arg5 harg5 hc0 hc1 x0 x1 xs).1)

/-! ## What the scratch and the output block hold after each point -/

/-- After point n: the output block (meaningful at k = 10 only; elsewhere a placeholder nothing consults) and the
    scratch, by the case of n and, off k = 0, over what point n − 1 left in the scratch. -/
def outsAt2 (c : Dev nD) : (n : ℕ) → n < cfg2.N → Vec F S512x2048 .f32 × Vec F S512x2048 .f32
  | 0, hn => (VO2.read (Elt F) VO2.junk,
      soutA c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 11 = 0 then
      if h1 : (n + 1) % 11 = 10 then
        False.elim (by omega)
      else
        (VO2.read (Elt F) VO2.junk,
          soutA c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 11 = 10 then
        (ooutC c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2,
          soutC c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (VO2.read (Elt F) VO2.junk,
          soutB c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- `outsAt2` at a point with k = 0. -/
theorem outsAt2_A (c : Dev nD) (t : Fin cfg2.N) (h0 : t.val % 11 = 0) (h1 : ¬t.val % 11 = 10) :
    outsAt2 V c t.val t.isLt = (VO2.read (Elt F) VO2.junk,
      soutA c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

/-- `outsAt2` at a point with 0 < k < 10, over what the point before left. -/
theorem outsAt2_B (c : Dev nD) (t : Fin cfg2.N) (h0 : ¬t.val % 11 = 0) (h1 : ¬t.val % 11 = 10) :
    outsAt2 V c t.val t.isLt = (VO2.read (Elt F) VO2.junk,
      soutB c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point with k = 10, over what the point before left. -/
theorem outsAt2_C (c : Dev nD) (t : Fin cfg2.N) (h0 : ¬t.val % 11 = 0) (h1 : t.val % 11 = 10) :
    outsAt2 V c t.val t.isLt = (ooutC c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
      soutC c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The scoped buffers of the other two launches, each at some contents: untouched here. -/
def rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- Before point n: the other launches' scoped buffers, the scratch (at anything before the first point, then at what
    the point before left), and the generator register at some state. -/
def PhiS (c : Dev nD) : (n : ℕ) → n ≤ cfg2.N → sProp 𝕄
  | 0, _ => iprop(rest2 (F := F) c ∗ (∃ d, owns (c : Thread nD τ) scM2 fullShare d) ∗ (∃ r, prngReg c r))
  | n + 1, hn => iprop(rest2 (F := F) c ∗ owns (c : Thread nD τ) scM2 fullShare ((outsAt2 V c n hn).2) ∗ (∃ r, prngReg c r))

theorem PhiS_zero (c : Dev nD) (n : ℕ) (h : n ≤ cfg2.N) (hz : n = 0) :
    PhiS V c n h = iprop(rest2 (F := F) c ∗ (∃ d, owns (c : Thread nD τ) scM2 fullShare d) ∗ (∃ r, prngReg c r)) := by
  subst hz; rfl
theorem PhiS_succ (c : Dev nD) (n : ℕ) (hn : n < cfg2.N) :
    PhiS V c (n + 1) hn = iprop(rest2 (F := F) c ∗ owns (c : Thread nD τ) scM2 fullShare ((outsAt2 V c n hn).2) ∗ (∃ r, prngReg c r)) := rfl
theorem PhiS_pos (c : Dev nD) (n : ℕ) (h : n ≤ cfg2.N) (hz : n ≠ 0) :
    PhiS V c n h = iprop(rest2 (F := F) c ∗ owns (c : Thread nD τ) scM2 fullShare ((outsAt2 V c (n - 1) (by omega)).2) ∗ (∃ r, prngReg c r)) := by
  cases n with
  | zero => exact absurd rfl hz
  | succ n => rfl

/-- What the launch hands the kernel (every scoped buffer no window stages at some contents, and the generator
    register) is the invariant before the first point, -/
theorem PhiA_split (c : Dev nD) :
    (Pipeline.ΦA spec2 c : sProp 𝕄) ⊢ iprop(rest2 (F := F) c ∗ (∃ d, owns (c : Thread nD τ) scM2 fullShare d) ∗ (∃ r, prngReg c r)) := by
  unfold Pipeline.ΦA rest2; rw [scopedRest2_eq]; simp only [scM2, owns_whole]
  iintro ⟨⟨B0, B1, B2, B3, B4, B5, B6, B7, B8, B9, B10, B11, B12, HS⟩, Hg⟩
  isplitl [B0 B1 B2 B3 B4 B5 B6 B7 B8 B9 B10 B11 B12]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    iexact B12
  isplitl [HS]; · iexact HS
  iexact Hg

/-- and the other way round. -/
theorem PhiA_join (c : Dev nD) :
    iprop(rest2 (F := F) c ∗ (∃ d, owns (c : Thread nD τ) scM2 fullShare d) ∗ (∃ r, prngReg c r)) ⊢ (Pipeline.ΦA spec2 c : sProp 𝕄) := by
  unfold Pipeline.ΦA rest2; rw [scopedRest2_eq]; simp only [scM2, owns_whole]
  iintro ⟨⟨B0, B1, B2, B3, B4, B5, B6, B7, B8, B9, B10, B11, B12⟩, HS, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    iexact HS
  iexact Hg

/-- Forgetting what the scratch holds. -/
theorem PhiS_weaken (c : Dev nD) (x : Vec F S512x2048 .f32) :
    (iprop(rest2 (F := F) c ∗ owns (c : Thread nD τ) scM2 fullShare x ∗ (∃ r, prngReg c r)) : sProp 𝕄)
      ⊢ iprop(rest2 (F := F) c ∗ (∃ d, owns (c : Thread nD τ) scM2 fullShare d) ∗ (∃ r, prngReg c r)) := by
  iintro ⟨HR, HS, Hg⟩
  isplitl [HR]; · iexact HR
  isplitl [HS]; · iexists _; iexact HS
  iexact Hg

/-! ## The per-point data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS_castSucc (c : Dev nD) (t : Fin cfg2.N) :
    (dat2 V c).Φ t.castSucc = PhiS V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS V c (t.val + 1) t.isLt from rfl, PhiS_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 176 := lt_of_lt_of_eq t.isLt (show cfg2.N = 176 from N_2)
  by_cases h0 : t.val % 11 = 0
  · have h1 : ¬t.val % 11 = 10 := by omega
    rw [Dat.leavesExact_idle (dat2 V c) 2 t (idleAt2_2 t (fun h => h1 ((hcond2_1 t).mp h))) (noFlush2_2 t (fun h => h1 ((hcond2_1 t).mp h)))]
    rw [outsAt2_A V c t h0 h1]
    unfold soutA; (try dsimp only)
    by_cases hz : t.val = 0
    · rw [PhiS_castSucc V c t, PhiS_zero V c _ _ hz]
      iintro ⟨⟨HR, HS, Hg⟩, Ho, ⟨%d0, H0⟩, ⟨%d1, H1⟩, ⟨%d2, H2⟩⟩
      iapply ((downRunA c (grid2.coords t) _ _ _ _ _ _ _ _ ((hcond2_0 t).mpr h0) (fun h => h1 ((hcond2_1 t).mp h)) (iblk2 V c 0 t) (iblk2 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HR HS Hg]
      · isplitl [HR]; · iexact HR
        isplitl [HS]
        · unfold owns; iexists _; isplitr
          swap; · iexact HS
          ipureintro; exact View.read_writes_of_cover _ _ _ _ _ (scoverA c _ _ _ _ _ _ _ _ _ _ _ _ _)
        iexact Hg
      isplitl [Ho]; · iexact Ho
      isplitl [H0]; · iexact H0
      isplitl [H1]; · iexact H1
      iexists _; iexact H2
    · rw [PhiS_castSucc V c t, PhiS_pos V c _ _ hz]
      iintro ⟨⟨HR, HS, Hg⟩, Ho, ⟨%d0, H0⟩, ⟨%d1, H1⟩, ⟨%d2, H2⟩⟩
      iapply ((downRunA c (grid2.coords t) _ _ _ _ _ _ _ _ ((hcond2_0 t).mpr h0) (fun h => h1 ((hcond2_1 t).mp h)) (iblk2 V c 0 t) (iblk2 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HR HS Hg]
      · isplitl [HR]; · iexact HR
        isplitl [HS]
        · unfold owns; iexists _; isplitr
          swap; · iexact HS
          ipureintro; exact View.read_writes_of_cover _ _ _ _ _ (scoverA c _ _ _ _ _ _ _ _ _ _ _ _ _)
        iexact Hg
      isplitl [Ho]; · iexact Ho
      isplitl [H0]; · iexact H0
      isplitl [H1]; · iexact H1
      iexists _; iexact H2
  · have hz : t.val ≠ 0 := by intro hz; rw [hz] at h0; exact h0 (Nat.zero_mod _)
    by_cases h1 : t.val % 11 = 10
    · rw [show (dat2 V c).leavesExact 2 t = owns (c : Thread nD τ) (ms2_2 t) fullShare ((dat2 V c).after 2 t) from by
        unfold Dat.leavesExact; rw [liveAt2_2 t ((hcond2_1 t).mpr h1)], after2_2]
      rw [outsAt2_C V c t h0 h1]
      unfold ooutC soutC; (try dsimp only)
      rw [PhiS_castSucc V c t, PhiS_pos V c _ _ hz]
      iintro ⟨⟨HR, HS, Hg⟩, Ho, ⟨%d0, H0⟩, ⟨%d1, H1⟩, ⟨%d2, H2⟩⟩
      iapply ((downRunC c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HR HS Hg]
      · isplitl [HR]; · iexact HR
        isplitl [HS]
        · unfold owns; iexists _; isplitr
          swap; · iexact HS
          ipureintro; exact View.read_writes_of_cover _ _ _ _ _ (scoverC c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (ocoverC c _ _ _ _ _ _ _ _ _ _ _ _ _ _)
    · rw [Dat.leavesExact_idle (dat2 V c) 2 t (idleAt2_2 t (fun h => h1 ((hcond2_1 t).mp h))) (noFlush2_2 t (fun h => h1 ((hcond2_1 t).mp h)))]
      rw [outsAt2_B V c t h0 h1]
      unfold soutB; (try dsimp only)
      rw [PhiS_castSucc V c t, PhiS_pos V c _ _ hz]
      iintro ⟨⟨HR, HS, Hg⟩, Ho, ⟨%d0, H0⟩, ⟨%d1, H1⟩, ⟨%d2, H2⟩⟩
      iapply ((downRunB c (grid2.coords t) _ _ _ _ _ _ _ _ (fun h => h0 ((hcond2_0 t).mp h)) (fun h => h1 ((hcond2_1 t).mp h)) (iblk2 V c 0 t) (iblk2 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HR HS Hg]
      · isplitl [HR]; · iexact HR
        isplitl [HS]
        · unfold owns; iexists _; isplitr
          swap; · iexact HS
          ipureintro; exact View.read_writes_of_cover _ _ _ _ _ (scoverB c _ _ _ _ _ _ _ _ _ _ _ _ _ _)
        iexact Hg
      isplitl [Ho]; · iexact Ho
      isplitl [H0]; · iexact H0
      isplitl [H1]; · iexact H1
      iexists _; iexact H2

/-- The pipeline rule's obligation on the body, at every point. -/
theorem body_obligation2 (c : Dev nD) : BodyObligation (dat2 (F := F) V c) (defs₀ (F := F)) Variants.none () Set.univ := fun t => by
  rw [bigSep_W2, bigSep_W2]
  exact sound_body2 V c t

/-- The invariant's two ends. -/
theorem hin2 (c : Dev nD) : Pipeline.ΦA spec2 c ⊢ (dat2 V c).Φ 0 := by
  rw [show (dat2 V c).Φ 0 = PhiS V c 0 (Nat.zero_le _) from rfl, PhiS_zero V c 0 _ rfl]
  exact PhiA_split c

theorem hout2 (c : Dev nD) : (dat2 V c).Φ (Fin.last cfg2.N) ⊢ Pipeline.ΦA spec2 c := by
  have hne : (Fin.last cfg2.N).val ≠ 0 := by rw [Fin.val_last]; have : cfg2.N = 176 := N_2; omega
  rw [show (dat2 V c).Φ (Fin.last cfg2.N) = PhiS V c (Fin.last cfg2.N).val (Nat.le_of_lt_succ (Fin.last cfg2.N).isLt) from rfl, PhiS_pos V c _ _ hne]
  exact (PhiS_weaken c _).trans (PhiA_join c)

end

end Cert.KernelIdeal.Mlp

end
-- ==== Proof.KI.Run.lean ====
/-
  The whole program: four casts on the host, then the three launches one after the other, at any float instance.

  The contents of the buffers are followed from segment to segment: after the casts; after the rotation (its result
  array at what the pipeline's write-backs leave, everything else as before); after the gate/up launch; after the down
  launch. Each launch is entered with every unscoped buffer held at the contents the segment before left. Read off the
  last contents: the result buffer holds the third launch's folded write-backs, and each argument holds what it was
  launched with, no cast and no launch writing it.
-/
import proofs.«165255_j59047210385427_1_alg».proof.Proof.Gen.KernelIdeal.Launch
import proofs.«165255_j59047210385427_1_alg».proof.Proof.Gen.KernelIdeal.Skeleton
import proofs.«165255_j59047210385427_1_alg».proof.Proof.Gen.KernelIdeal.Points
import proofs.«165255_j59047210385427_1_alg».proof.Proof.KI.Rot
import proofs.«165255_j59047210385427_1_alg».proof.Proof.KI.GateUp
import proofs.«165255_j59047210385427_1_alg».proof.Proof.KI.Down
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Mlp

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => m ((c : Dev nD), b)
/-- After the four casts. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At launch 0's exit: its arrays at what the pipeline leaves (an input as entered, the output with its write-backs
    folded in), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At launch 1's exit: its arrays at what the pipeline leaves (an input as entered, the output with its write-backs
    folded in), every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- At launch 2's exit: its arrays at what the pipeline leaves (an input as entered, the output with its write-backs
    folded in), every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg4) := rfl

/-- The result buffer ends at the third launch's folded write-backs. -/
theorem W4_main_v6 (c : Dev nD) : W4 m c (Proc.devRef .tc main_v6) = (dat2 (V3 m) c).arrAt 2 cfg2.N := W4_arr m c 2

/-! ## The proof data of the three launches, and what rides along -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- Beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, apart from the core owing nothing. -/
abbrev Tₙ (c : Dev nD) : sProp 𝕄 := iprop(StableHlo.held (c : Thread nD τ) (Pipeline.ucRefs τ sig) (W4 m c) ∗ ∃ r, prngReg c r)

/-! ## The launches as segments -/

/-- What the third launch's entry hands its kernel makes the class invariant, -/
theorem phiA_in2 (c : Dev nD) :
    (iprop((∃ r, prngReg c r) ∗ Pipeline.prefHeld (pcfgs (F := F) 2).pre c (fun _ => fullShare) (adm (F := F) 2).1
        ∗ Pipeline.scopedRest (Pipeline.pin (pcfgs (F := F)) adm 2).spec c) : sProp 𝕄) ⊢ Pipeline.ΦA spec2 c := by
  unfold Pipeline.ΦA
  iintro ⟨Hp, -, Hr⟩
  isplitl [Hr]; · iexact Hr
  iexact Hp
/-- and the class invariant gives it back at the exit. -/
theorem phiA_out2 (c : Dev nD) :
    (Pipeline.ΦA spec2 c : sProp 𝕄) ⊢ iprop((∃ r, prngReg c r) ∗ Pipeline.ownSems0 (fun k : PEmpty => k.elim) c
        ∗ Pipeline.scopedRest (Pipeline.pin (pcfgs (F := F)) adm 2).spec c) := by
  rw [Pipeline.ownSems0_none]; unfold Pipeline.ΦA
  iintro ⟨Hr, Hp⟩
  isplitl [Hp]; · iexact Hp
  isplitr; · iempintro
  iexact Hr

set_option backward.isDefEq.respectTransparency.types false in
/-- Launch 0 as a segment: entered with every unscoped buffer at `W1`, left with them at `W2`. Its arrays are split
    out of the unscoped buffers at entry and put back at their final contents at exit; the generator register goes
    into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment: entered with every unscoped buffer at `W2`, left with them at `W3`. Its arrays are split
    out of the unscoped buffers at entry and put back at their final contents at exit; the generator register goes
    into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 as a segment: entered with every unscoped buffer at `W3`, left with them at `W4`. Its arrays are split
    out of the unscoped buffers at entry and put back at their final contents at exit; the generator register goes
    into the invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_in2 c).trans (show Pipeline.ΦA spec2 c ⊢ (pdats m 2 c).Φ 0 from hin2 (V3 m) c)
  hout c := (show (pdats m 2 c).Φ (Fin.last _) ⊢ Pipeline.ΦA spec2 c from hout2 (V3 m) c).trans (phiA_out2 c)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh' (W0 m)),
    .region (reg0 m),
    .region (reg1 m),
    .region (reg2 m) ]
theorem main_run (c : Dev nD) : main (F := F) c = Pipeline.Seg.run (segs m) := (main_chain c).trans (by chain_rfl)

set_option backward.isDefEq.respectTransparency.types false in
/-- Every weakly fair execution of the program from memory m with zero counters terminates, nothing faulting, and in
    every final state the result buffer holds the third launch's folded write-backs and each argument what it was
    launched with. -/
theorem run_main : θ_run defs (onTc (τ := τ) (main (F := F))) ⟨m, fun _ => 0, ρ⟩ (fun r => ∀ c : Dev nD,
      r.2.mem ((c.tc : Thread nD τ).loc main_v6) = (dat2 (V3 m) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v6 (by decide))).trans (W4_main_v6 m c),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_main m ρ)

end Cert.KernelIdeal.Mlp

end
-- ==== Proof.Spec.lean ====
/-
  What the three launches compute, as functions of whole arrays over the extended reals, entry by entry.

  A token row x[r, ·] is first rotated: xr[r, c] = Σ_k x[r, k] · H[c, k] (the product with Hᵀ). The gate and up
  projections are s[r, n] = Σ_k xr[r, k] · G[n, k] and u[r, n] = Σ_k xr[r, k] · U[n, k]; the hidden activation is
  h[r, n] = (s · logistic s) · u, with logistic z = 1 / (1 + e^(−z)) on the extended reals. The result is
  out[r, c] = Σ_n h[r, n] · D[c, n] (the product with Dᵀ).
-/
import Idealize.ShloMosaic.PureOps.Ideal
import Idealize.ShloMosaic.Lib.ValueIdx

noncomputable section

namespace Cert.Mlp.Spec

open Idealize.ShloMosaic Idealize.ShloMosaic.ValueIdx

/-- tokens × hidden -/
abbrev Xs : Shape := ⟨2, ![8192, 2048]⟩
/-- hidden × hidden -/
abbrev Hs : Shape := ⟨2, ![2048, 2048]⟩
/-- inter × hidden (gate and up weights) -/
abbrev Ws : Shape := ⟨2, ![5632, 2048]⟩
/-- hidden × inter (down weights) -/
abbrev Ds : Shape := ⟨2, ![2048, 5632]⟩
/-- tokens × inter -/
abbrev Ms : Shape := ⟨2, ![8192, 5632]⟩

/-- Entry (r, c) of x · Hᵀ. -/
def rotAt (x : Xs.Idx → EReal) (h : Hs.Idx → EReal) (r : Fin 8192) (c : Fin 2048) : EReal :=
  ∑ k : Fin 2048, x (ix2 r k) * h (ix2 c k)

/-- x · Hᵀ. -/
def rot (x : Xs.Idx → EReal) (h : Hs.Idx → EReal) : Xs.Idx → EReal := fun i => rotAt x h (i 0) (i 1)

/-- z · logistic z. -/
def silu (z : EReal) : EReal := z * Ideal.logistic z

/-- Entry (r, n) of silu(xr · Gᵀ) ⊙ (xr · Uᵀ). -/
def midAt (xr : Xs.Idx → EReal) (g u : Ws.Idx → EReal) (r : Fin 8192) (n : Fin 5632) : EReal :=
  silu (∑ k : Fin 2048, xr (ix2 r k) * g (ix2 n k)) * ∑ k : Fin 2048, xr (ix2 r k) * u (ix2 n k)

/-- silu(xr · Gᵀ) ⊙ (xr · Uᵀ). -/
def mid (xr : Xs.Idx → EReal) (g u : Ws.Idx → EReal) : Ms.Idx → EReal := fun i => midAt xr g u (i 0) (i 1)

/-- Entry (r, c) of h · Dᵀ. -/
def downAt (h : Ms.Idx → EReal) (d : Ds.Idx → EReal) (r : Fin 8192) (c : Fin 2048) : EReal :=
  ∑ n : Fin 5632, h (ix2 r n) * d (ix2 c n)

/-- h · Dᵀ. -/
def down (h : Ms.Idx → EReal) (d : Ds.Idx → EReal) : Xs.Idx → EReal := fun i => downAt h d (i 0) (i 1)

/-- The whole computation. -/
def mlp (x : Xs.Idx → EReal) (hh : Hs.Idx → EReal) (g u : Ws.Idx → EReal) (d : Ds.Idx → EReal) : Xs.Idx → EReal :=
  down (mid (rot x hh) g u) d

end Cert.Mlp.Spec

end
-- ==== Proof.KI.RotValue.lean ====
/-
  The value of the first launch over the extended reals: after it the result array holds x · Hᵀ.

  The body's one stored value is the product of the loaded 512 × 2048 block of x with the transpose of the loaded
  2048 × 2048 array H (both operands contract their second axis): entry (p, q) is Σ_k x[p, k] · H[q, k]. The two
  format changes and the cast to the same shape are the identity on the extended reals. Point t of the 16 stages rows
  512 t … 512 t + 511 of x and the whole of H, and writes rows 512 t … 512 t + 511 of the result, so entry
  (512 t + p, q) of the result is Σ_k x[512 t + p, k] · H[q, k]; row r is written by point r / 512, and the 16 blocks
  cover the result.
-/
import proofs.«165255_j59047210385427_1_alg».proof.Proof.KI.Rot
import proofs.«165255_j59047210385427_1_alg».proof.Proof.Spec
import Idealize.ShloMosaic.Lib.Pipeline.Value
import Idealize.ShloMosaic.Lib.ValueIdx
import Idealize.ShloMosaic.PureOps.Ideal.Laws

noncomputable section

namespace Cert.KernelIdeal.Mlp

open Cert.KernelIdeal.Gen
open Idealize.ShloMosaic Idealize.ShloMosaic.TcCoe Idealize.ShloMosaic.ValueIdx Idealize.SL.Sem
open Idealize.ShloMosaic.Pipeline (Dat)

/-- The left operand's row is the result's row. -/
theorem rot_lhs_0 (i : S512x2048.Idx) (q : dot_S512x2048_S2048x2048_S512x2048_1_1_0_0_n_n.contr.Idx) :
    (dot_S512x2048_S2048x2048_S512x2048_1_1_0_0_n_n.lhsIdx i q 0).val = (i 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
/-- The left operand's column is the contraction index. -/
theorem rot_lhs_1 (i : S512x2048.Idx) (q : dot_S512x2048_S2048x2048_S512x2048_1_1_0_0_n_n.contr.Idx) :
    (dot_S512x2048_S2048x2048_S512x2048_1_1_0_0_n_n.lhsIdx i q 1).val = (q ⟨0, by decide⟩).val :=
  dot_S512x2048_S2048x2048_S512x2048_1_1_0_0_n_n.lhsIdx_val_of_single rfl i q
/-- The right operand's row is the result's column. -/
theorem rot_rhs_0 (i : S512x2048.Idx) (q : dot_S512x2048_S2048x2048_S512x2048_1_1_0_0_n_n.contr.Idx) :
    (dot_S512x2048_S2048x2048_S512x2048_1_1_0_0_n_n.rhsIdx i q 0).val = (i 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
/-- The right operand's column is the contraction index. -/
theorem rot_rhs_1 (i : S512x2048.Idx) (q : dot_S512x2048_S2048x2048_S512x2048_1_1_0_0_n_n.contr.Idx) :
    (dot_S512x2048_S2048x2048_S512x2048_1_1_0_0_n_n.rhsIdx i q 1).val = (q ⟨0, by decide⟩).val :=
  dot_S512x2048_S2048x2048_S512x2048_1_1_0_0_n_n.rhsIdx_val_of_single rfl i q

/-- The product A · Bᵀ into the zero block, at entry (p, q): Σ_k A[p, k] · B[q, k]. -/
theorem rot_matmul_apply (a : FVec Ideal S512x2048 .bf16) (b : FVec Ideal S2048x2048 .bf16) (p : Fin 512) (q : Fin 2048) :
    (matmul dot_S512x2048_S2048x2048_S512x2048_1_1_0_0_n_n none a b (constant (F := Ideal) S512x2048 .f32 0x00000000#32) : FVec Ideal S512x2048 .f32) (ix2 p q)
      = ∑ k : Fin 2048, a (ix2 p k) * b (ix2 q k) := by
  refine (Ideal.matmul_constant_zero_apply dot_S512x2048_S2048x2048_S512x2048_1_1_0_0_n_n none a b (ix2 p q)).trans ?_
  rw [← Equiv.sum_comp (contrEquiv1 dot_S512x2048_S2048x2048_S512x2048_1_1_0_0_n_n 2048 rfl rfl).symm]
  refine Finset.sum_congr rfl fun k _ => ?_
  have hk := contrEquiv1_symm_val dot_S512x2048_S2048x2048_S512x2048_1_1_0_0_n_n 2048 rfl rfl k
  have el : dot_S512x2048_S2048x2048_S512x2048_1_1_0_0_n_n.lhsIdx (ix2 p q) ((contrEquiv1 dot_S512x2048_S2048x2048_S512x2048_1_1_0_0_n_n 2048 rfl rfl).symm k) = ix2 p k := funext fun a => Fin.ext (by
    match a with
    | ⟨0, _⟩ => exact rot_lhs_0 _ _
    | ⟨1, _⟩ => exact (rot_lhs_1 _ _).trans hk)
  have er : dot_S512x2048_S2048x2048_S512x2048_1_1_0_0_n_n.rhsIdx (ix2 p q) ((contrEquiv1 dot_S512x2048_S2048x2048_S512x2048_1_1_0_0_n_n 2048 rfl rfl).symm k) = ix2 q k := funext fun a => Fin.ext (by
    match a with
    | ⟨0, _⟩ => exact rot_rhs_0 _ _
    | ⟨1, _⟩ => exact (rot_rhs_1 _ _).trans hk)
  rw [el, er]

/-- Entry (p, q) of the stored block is Σ_k x[p, k] · H[q, k]. -/
theorem rot_pay_apply (x0 : Vec Ideal S512x2048 .f32) (x1 : Vec Ideal S2048x2048 .bf16) (p : Fin 512) (q : Fin 2048) :
    (k0_pay1 (F := Ideal) x0 x1 : S512x2048.Idx → EReal) (ix2 p q)
      = ∑ k : Fin 2048, (x0 : S512x2048.Idx → EReal) (ix2 p k) * (x1 : S2048x2048.Idx → EReal) (ix2 q k) := by
  have e : shapeCast S2048x2048 x1 shapeCasts_S2048x2048_S2048x2048 = x1 := shapeCast_self x1 _
  unfold k0_pay1
  refine (rot_matmul_apply (truncf .bf16 x0 bitsLt_bf16_f32) (shapeCast S2048x2048 x1 shapeCasts_S2048x2048_S2048x2048) p q).trans ?_
  refine Finset.sum_congr rfl fun k _ => ?_
  exact congrArg (fun z : S2048x2048.Idx → EReal => (x0 : S512x2048.Idx → EReal) (ix2 p k) * z (ix2 q k)) e

/-! ## From the blocks to the array -/

section
variable (V : (c : Dev nD) → (b : Ref sig .tc) → Buf (Elt Ideal) ((c : Thread nD τ).loc b))

theorem rot_hz : (![0, 0] : Fin 2 → Nat) = fun _ => 0 := funext fun a => by fin_cases a <;> rfl

/-- Over the 16 points: point t stages block row t of x and of the result, and the one block of H. -/
theorem rot_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row 512 t + p of the 8192-row arrays. -/
def rotRow (t : Fin cfg0.N) (p : Fin 512) : Fin 8192 :=
  ⟨512 * t.val + p.val, by have ht : t.val < 16 := Nat.lt_of_lt_of_eq t.isLt N_0; have hp := p.isLt; omega⟩

/-- The block of x at point t is rows 512 t … 512 t + 511 of x. -/
theorem rot_xblk_apply (c : Dev nD) (t : Fin cfg0.N) (y : S512x2048.Idx) (i : S8192x2048.Idx)
    (h0 : (i 0).val = 512 * t.val + (y 0).val) (h1 : (i 1).val = (y 1).val) :
    (iblk0 (F := Ideal) V c 0 t : S512x2048.Idx → EReal) y = (V c main_arg0 : S8192x2048.Idx → EReal) i := by
  obtain ⟨e0, e1, -, -, -, -⟩ := rot_idx t
  unfold iblk0
  rw [View.read_apply]
  show V c main_arg0 _ = V c main_arg0 _
  congr 1
  funext a
  apply Fin.ext
  match a with
  | ⟨0, _⟩ => show win0_0.index t (0 : Fin 2) * 512 + 1 * (y 0).val = (i 0).val; rw [e0, h0]; omega
  | ⟨1, _⟩ => show win0_0.index t (1 : Fin 2) * 2048 + 1 * (y 1).val = (i 1).val; rw [e1, h1]; omega

/-- The block of H at every point is the whole of H. -/
theorem rot_hblk_apply (c : Dev nD) (t : Fin cfg0.N) (y : S2048x2048.Idx) :
    (iblk0 (F := Ideal) V c 1 t : S2048x2048.Idx → EReal) y = (V c main_v0 : S2048x2048.Idx → EReal) y := by
  obtain ⟨-, -, e2, e3, -, -⟩ := rot_idx t
  unfold iblk0
  rw [View.read_apply]
  show V c main_v0 _ = V c main_v0 _
  congr 1
  funext a
  apply Fin.ext
  match a with
  | ⟨0, _⟩ => show win0_1.index t (0 : Fin 2) * 2048 + 1 * (y 0).val = (y 0).val; rw [e2]; omega
  | ⟨1, _⟩ => show win0_1.index t (1 : Fin 2) * 2048 + 1 * (y 1).val = (y 1).val; rw [e3]; omega

/-- Entry (p, q) of the result's block at point t sits at (512 t + p, q) of the result. -/
theorem rot_oblk_emb (t : Fin cfg0.N) (p : Fin 512) (q : Fin 2048) :
    ((cfg0.win 2).blk t).view.emb (ix2 p q : S512x2048.Idx) = (ix2 (rotRow t p) q : S8192x2048.Idx) := by
  obtain ⟨-, -, -, -, e4, e5⟩ := rot_idx t
  funext a
  apply Fin.ext
  match a with
  | ⟨0, _⟩ => show win0_2.index t (0 : Fin 2) * 512 + 1 * p.val = 512 * t.val + p.val; rw [e4]; omega
  | ⟨1, _⟩ => show win0_2.index t (1 : Fin 2) * 2048 + 1 * q.val = q.val; rw [e5]; omega

/-- What the body leaves at entry y of the output block at point t is x · Hᵀ at that entry's place in the result. -/
theorem rot_block_apply (c : Dev nD) (t : Fin cfg0.N) (y : S512x2048.Idx) :
    (k0_pay1 (F := Ideal) (iblk0 V c 0 t) (iblk0 V c 1 t) : S512x2048.Idx → EReal) y
      = Cert.Mlp.Spec.rot (V c main_arg0 : S8192x2048.Idx → EReal) (V c main_v0 : S2048x2048.Idx → EReal) (((cfg0.win 2).blk t).view.emb y) := by
  obtain ⟨p, q, rfl⟩ : ∃ (p : Fin 512) (q : Fin 2048), y = ix2 p q := ⟨y 0, y 1, eq_ix2 y⟩
  refine (rot_pay_apply (iblk0 V c 0 t) (iblk0 V c 1 t) p q).trans ?_
  refine Eq.trans ?_ (congrArg (Cert.Mlp.Spec.rot (V c main_arg0 : S8192x2048.Idx → EReal) (V c main_v0 : S2048x2048.Idx → EReal)) (rot_oblk_emb t p q)).symm
  show _ = Cert.Mlp.Spec.rotAt _ _ (rotRow t p) q
  unfold Cert.Mlp.Spec.rotAt
  refine Finset.sum_congr rfl fun k _ => ?_
  rw [rot_xblk_apply V c t (ix2 p k) (ix2 (rotRow t p) k) rfl rfl, rot_hblk_apply V c t (ix2 q k)]

/-- What point t writes back is block row t of x · Hᵀ. -/
theorem rot_flushed (c : Dev nD) (t : Fin cfg0.N) :
    (dat0 (F := Ideal) V c).flushed 2 t
      = ((cfg0.win 2).blk t).view.read (Elt Ideal) (Cert.Mlp.Spec.rot (V c main_arg0 : S8192x2048.Idx → EReal) (V c main_v0 : S2048x2048.Idx → EReal)) := by
  show (cfg0.win 2).cut (grid0.coords t) ((dat0 V c).after 2 t) = _
  rw [after0_2]
  unfold rotOut
  rw [View.canon_unit_zero rot_hz]
  simp only [View.ld_unit_zero (S := S512x2048) rot_hz, View.ld_unit_zero (S := S2048x2048) rot_hz]
  funext j
  exact rot_block_apply V c t j

/-- An index of the result is in point t's block iff its row is one of 512 t … 512 t + 511. -/
theorem rot_mem_blk (t : Fin cfg0.N) (i : S8192x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v4).slice (win0_2.rect t)).set ↔ _
  rw [View.set_slice_whole, Rect.mem_set_unit]
  exact Iff.rfl

/-- Row r of the result is written by point r / 512. -/
theorem rot_cover (i : S8192x2048.Idx) :
    ∃ t : Fin cfg0.N, (cfg0.win 2).flush t = true ∧ i ∈ ((cfg0.win 2).blk t).view.set := by
  have hi0 : (i 0).val < 8192 := (i 0).isLt
  have hi1 : (i 1).val < 2048 := (i 1).isLt
  obtain ⟨t, ht⟩ : ∃ t : Fin cfg0.N, t.val = (i 0).val / 512 := ⟨⟨(i 0).val / 512, by rw [show cfg0.N = 16 from N_0]; omega⟩, rfl⟩
  obtain ⟨-, -, -, -, e4, e5⟩ := rot_idx t
  refine ⟨t, flush0_2 t, ?_⟩
  rw [rot_mem_blk]
  intro a
  match a with
  | ⟨0, _⟩ => show win0_2.index t (0 : Fin 2) * 512 ≤ (i 0).val ∧ (i 0).val < win0_2.index t (0 : Fin 2) * 512 + 512; rw [e4]; omega
  | ⟨1, _⟩ => show win0_2.index t (1 : Fin 2) * 2048 ≤ (i 1).val ∧ (i 1).val < win0_2.index t (1 : Fin 2) * 2048 + 2048; rw [e5]; omega

/-- After the launch the result array holds x · Hᵀ. -/
theorem rot_arr (c : Dev nD) :
    ((dat0 (F := Ideal) V c).arrAt 2 cfg0.N : Cert.Mlp.Spec.Xs.Idx → EReal)
      = Cert.Mlp.Spec.rot (V c main_arg0 : Cert.Mlp.Spec.Xs.Idx → EReal) (V c main_v0 : Cert.Mlp.Spec.Hs.Idx → EReal) :=
  (dat0 (F := Ideal) V c).arrAt_eq_of_cover 2 (Cert.Mlp.Spec.rot (V c main_arg0 : S8192x2048.Idx → EReal) (V c main_v0 : S2048x2048.Idx → EReal))
    (fun t _ => rot_flushed V c t) rot_cover

end

end Cert.KernelIdeal.Mlp

end
-- ==== Proof.KI.GateUpValueA.lean ====
/-
  The gated product on one 512 × 512 block, entry by entry, over the extended reals.

  For blocks x (512 × 2048, rows of the rotated activations), g and u (512 × 2048 each, rows of the gate and up
  weights), entry (p, q) of the stored block is silu(Σ_k x[p, k] · g[q, k]) · Σ_k x[p, k] · u[q, k], with
  silu z = z · logistic z: both products contract the second axis of both operands (x · gᵀ and x · uᵀ).
-/
import proofs.«165255_j59047210385427_1_alg».proof.Proof.KI.GateUp
import proofs.«165255_j59047210385427_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Mlp

open Cert.KernelIdeal.Gen
open Idealize.ShloMosaic Idealize.ShloMosaic.TcCoe Idealize.ShloMosaic.ValueIdx

/-! ## The operand indices of x · yᵀ on a block: output (p, q) and contraction index k read x at (p, k), y at (q, k) -/

theorem gu_lhs_0 (i : S512x512.Idx) (q : dot_S512x2048_S512x2048_S512x512_1_1_0_0_n_n.contr.Idx) :
    (dot_S512x2048_S512x2048_S512x512_1_1_0_0_n_n.lhsIdx i q 0).val = (i 0).val := by
  unfold DotDims.lhsIdx
  rw [dif_neg (show ¬(0 : Fin S512x2048.rank) ∈ dot_S512x2048_S512x2048_S512x512_1_1_0_0_n_n.lhsBatch by decide), dif_pos (show (0 : Fin S512x2048.rank) ∈ dot_S512x2048_S512x2048_S512x512_1_1_0_0_n_n.lhsNonContracting by decide)]
  rfl
theorem gu_lhs_1 (i : S512x512.Idx) (q : dot_S512x2048_S512x2048_S512x512_1_1_0_0_n_n.contr.Idx) :
    (dot_S512x2048_S512x2048_S512x512_1_1_0_0_n_n.lhsIdx i q 1).val = (q ⟨0, by decide⟩).val :=
  dot_S512x2048_S512x2048_S512x512_1_1_0_0_n_n.lhsIdx_val_of_single rfl i q
theorem gu_rhs_0 (i : S512x512.Idx) (q : dot_S512x2048_S512x2048_S512x512_1_1_0_0_n_n.contr.Idx) :
    (dot_S512x2048_S512x2048_S512x512_1_1_0_0_n_n.rhsIdx i q 0).val = (i 1).val := by
  unfold DotDims.rhsIdx
  rw [dif_neg (show ¬(0 : Fin S512x2048.rank) ∈ dot_S512x2048_S512x2048_S512x512_1_1_0_0_n_n.rhsBatch by decide), dif_pos (show (0 : Fin S512x2048.rank) ∈ dot_S512x2048_S512x2048_S512x512_1_1_0_0_n_n.rhsNonContracting by decide)]
  rfl
theorem gu_rhs_1 (i : S512x512.Idx) (q : dot_S512x2048_S512x2048_S512x512_1_1_0_0_n_n.contr.Idx) :
    (dot_S512x2048_S512x2048_S512x512_1_1_0_0_n_n.rhsIdx i q 1).val = (q ⟨0, by decide⟩).val :=
  dot_S512x2048_S512x2048_S512x512_1_1_0_0_n_n.rhsIdx_val_of_single rfl i q

/-- Entry (p, q) of x · yᵀ accumulated into zero: Σ_k x[p, k] · y[q, k]. -/
theorem gu_matmul_apply (x y : FVec Ideal S512x2048 .bf16) (p q : Fin 512) :
    matmul dot_S512x2048_S512x2048_S512x512_1_1_0_0_n_n none x y (constant (F := Ideal) S512x512 .f32 0x00000000#32) (ix2 p q)
      = ∑ k : Fin 2048, x (ix2 p k) * y (ix2 q k) := by
  refine (Ideal.matmul_constant_zero_apply dot_S512x2048_S512x2048_S512x512_1_1_0_0_n_n none x y (ix2 p q)).trans ?_
  rw [← Equiv.sum_comp (ValueIdx.contrEquiv1 dot_S512x2048_S512x2048_S512x512_1_1_0_0_n_n 2048 rfl rfl).symm]
  refine Finset.sum_congr rfl fun k _ => ?_
  have hk := ValueIdx.contrEquiv1_symm_val dot_S512x2048_S512x2048_S512x512_1_1_0_0_n_n 2048 rfl rfl k
  have el : dot_S512x2048_S512x2048_S512x512_1_1_0_0_n_n.lhsIdx (ix2 p q) ((ValueIdx.contrEquiv1 dot_S512x2048_S512x2048_S512x512_1_1_0_0_n_n 2048 rfl rfl).symm k) = ix2 p k := funext fun a => Fin.ext (by
    match a with
    | ⟨0, _⟩ => exact gu_lhs_0 _ _
    | ⟨1, _⟩ => exact (gu_lhs_1 _ _).trans hk)
  have er : dot_S512x2048_S512x2048_S512x512_1_1_0_0_n_n.rhsIdx (ix2 p q) ((ValueIdx.contrEquiv1 dot_S512x2048_S512x2048_S512x512_1_1_0_0_n_n 2048 rfl rfl).symm k) = ix2 q k := funext fun a => Fin.ext (by
    match a with
    | ⟨0, _⟩ => exact gu_rhs_0 _ _
    | ⟨1, _⟩ => exact (gu_rhs_1 _ _).trans hk)
  rw [el, er]

/-- Entry (p, q) of the stored block: silu(Σ_k x[p, k] · g[q, k]) · Σ_k x[p, k] · u[q, k]. -/
theorem gu_pay_apply (x g u : Vec Ideal S512x2048 .bf16) (p q : Fin 512) :
    k1_pay1 x g u (ix2 p q)
      = Cert.Mlp.Spec.silu (∑ k : Fin 2048, x (ix2 p k) * g (ix2 q k)) * ∑ k : Fin 2048, x (ix2 p k) * u (ix2 q k) := by
  have h1 := gu_matmul_apply x g p q
  have h2 := gu_matmul_apply x u p q
  unfold k1_pay1
  simp only [shapeCast_self]
  show (matmul dot_S512x2048_S512x2048_S512x512_1_1_0_0_n_n none x g (constant (F := Ideal) S512x512 .f32 0x00000000#32) (ix2 p q)
        * Ideal.logistic (matmul dot_S512x2048_S512x2048_S512x512_1_1_0_0_n_n none x g (constant (F := Ideal) S512x512 .f32 0x00000000#32) (ix2 p q)))
      * matmul dot_S512x2048_S512x2048_S512x512_1_1_0_0_n_n none x u (constant (F := Ideal) S512x512 .f32 0x00000000#32) (ix2 p q) = _
  rw [h1, h2]
  rfl

/-- The same with the blocks' rows named in whole arrays: if row p of x is row r of A, and row q of g and of u are
    row n of G and of U, the entry is the specification's at (r, n). -/
theorem gu_point (x g u : Vec Ideal S512x2048 .bf16) (A : Cert.Mlp.Spec.Xs.Idx → EReal) (G U : Cert.Mlp.Spec.Ws.Idx → EReal)
    (p q : Fin 512) (r : Fin 8192) (n : Fin 5632)
    (h0 : ∀ k : Fin 2048, x (ix2 p k) = A (ix2 r k))
    (h1 : ∀ k : Fin 2048, g (ix2 q k) = G (ix2 n k))
    (h2 : ∀ k : Fin 2048, u (ix2 q k) = U (ix2 n k)) :
    k1_pay1 x g u (ix2 p q) = Cert.Mlp.Spec.midAt A G U r n := by
  refine (gu_pay_apply x g u p q).trans ?_
  unfold Cert.Mlp.Spec.midAt
  have e1 : (∑ k : Fin 2048, x (ix2 p k) * g (ix2 q k)) = ∑ k : Fin 2048, A (ix2 r k) * G (ix2 n k) :=
    Finset.sum_congr rfl fun k _ => by rw [h0 k, h1 k]
  have e2 : (∑ k : Fin 2048, x (ix2 p k) * u (ix2 q k)) = ∑ k : Fin 2048, A (ix2 r k) * U (ix2 n k) :=
    Finset.sum_congr rfl fun k _ => by rw [h0 k, h2 k]
  rw [e1, e2]

end Cert.KernelIdeal.Mlp

end
-- ==== Proof.KI.GateUpValue.lean ====
/-
  The second launch's result array over the extended reals: the hidden activations of the specification.

  Point t of the 16 × 11 grid is (i, j) = (t / 11, t % 11). It reads rows 512 i … 512 i + 511 of the rotated
  activations xr, rows 512 j … 512 j + 511 of the gate weights G and of the up weights U, and writes block (i, j) of
  the 8192 × 5632 result: entry (512 i + p, 512 j + q) is
  silu(Σ_k xr[512 i + p, k] · G[512 j + q, k]) · Σ_k xr[512 i + p, k] · U[512 j + q, k].
  Entry (r, n) lies in the block of point 11 (r / 512) + n / 512, so the blocks cover the array.
-/
import proofs.«165255_j59047210385427_1_alg».proof.Proof.KI.GateUpValueA

set_option maxRecDepth 16384

noncomputable section

namespace Cert.KernelIdeal.Mlp

open Cert.KernelIdeal.Gen
open Idealize.ShloMosaic Idealize.ShloMosaic.TcCoe Idealize.ShloMosaic.ValueIdx
open Idealize.ShloMosaic.Pipeline (Dat)

theorem gu_hz : (![0, 0] : Fin 2 → Nat) = fun _ => 0 := funext fun a => by fin_cases a <;> rfl

/-- The block indices at point t: (t / 11, 0) for the activations, (t % 11, 0) for both weights, (t / 11, t % 11) for
    the result. -/
theorem gu_idx : ∀ t : Fin cfg1.N, win1_0.index t (0 : Fin 2) = t.val / 11
    ∧ win1_0.index t (1 : Fin 2) = 0
    ∧ win1_1.index t (0 : Fin 2) = t.val % 11
    ∧ win1_1.index t (1 : Fin 2) = 0
    ∧ win1_2.index t (0 : Fin 2) = t.val % 11
    ∧ win1_2.index t (1 : Fin 2) = 0
    ∧ win1_3.index t (0 : Fin 2) = t.val / 11
    ∧ win1_3.index t (1 : Fin 2) = t.val % 11 :=
  (by decide +kernel : ∀ t : Fin grid1.N, _)

section
variable (V : (c : Dev nD) → (b : Ref sig .tc) → Buf (Elt Ideal) ((c : Thread nD τ).loc b))

/-- Row p of the activations' block at point t is row 512 (t / 11) + p of the array. -/
theorem gu_blk0 (c : Dev nD) (t : Fin cfg1.N) (p : Fin 512) (k : Fin 2048) (r : Fin 8192) (hr : r.val = 512 * (t.val / 11) + p.val) :
    (iblk1 V c 0 t : Vec Ideal S512x2048 .bf16) (ix2 p k) = (V c main_v4 : Cert.Mlp.Spec.Xs.Idx → EReal) (ix2 r k) := by
  obtain ⟨e0, e1, -⟩ := gu_idx t
  show V c main_v4 (((cfg1.win 0).blk t).view.emb (ix2 p k)) = V c main_v4 (ix2 r k)
  refine congrArg (V c main_v4) (funext fun a => Fin.ext ?_)
  match a with
  | ⟨0, _⟩ => show win1_0.index t (0 : Fin 2) * 512 + 1 * p.val = r.val; rw [e0, hr]; omega
  | ⟨1, _⟩ => show win1_0.index t (1 : Fin 2) * 2048 + 1 * k.val = k.val; rw [e1]; omega

/-- Row q of the gate weights' block at point t is row 512 (t % 11) + q of the array. -/
theorem gu_blk1 (c : Dev nD) (t : Fin cfg1.N) (q : Fin 512) (k : Fin 2048) (n : Fin 5632) (hn : n.val = 512 * (t.val % 11) + q.val) :
    (iblk1 V c 1 t : Vec Ideal S512x2048 .bf16) (ix2 q k) = (V c main_v1 : Cert.Mlp.Spec.Ws.Idx → EReal) (ix2 n k) := by
  obtain ⟨-, -, e0, e1, -⟩ := gu_idx t
  show V c main_v1 (((cfg1.win 1).blk t).view.emb (ix2 q k)) = V c main_v1 (ix2 n k)
  refine congrArg (V c main_v1) (funext fun a => Fin.ext ?_)
  match a with
  | ⟨0, _⟩ => show win1_1.index t (0 : Fin 2) * 512 + 1 * q.val = n.val; rw [e0, hn]; omega
  | ⟨1, _⟩ => show win1_1.index t (1 : Fin 2) * 2048 + 1 * k.val = k.val; rw [e1]; omega

/-- Row q of the up weights' block at point t is row 512 (t % 11) + q of the array. -/
theorem gu_blk2 (c : Dev nD) (t : Fin cfg1.N) (q : Fin 512) (k : Fin 2048) (n : Fin 5632) (hn : n.val = 512 * (t.val % 11) + q.val) :
    (iblk1 V c 2 t : Vec Ideal S512x2048 .bf16) (ix2 q k) = (V c main_v2 : Cert.Mlp.Spec.Ws.Idx → EReal) (ix2 n k) := by
  obtain ⟨-, -, -, -, e0, e1, -⟩ := gu_idx t
  show V c main_v2 (((cfg1.win 2).blk t).view.emb (ix2 q k)) = V c main_v2 (ix2 n k)
  refine congrArg (V c main_v2) (funext fun a => Fin.ext ?_)
  match a with
  | ⟨0, _⟩ => show win1_2.index t (0 : Fin 2) * 512 + 1 * q.val = n.val; rw [e0, hn]; omega
  | ⟨1, _⟩ => show win1_2.index t (1 : Fin 2) * 2048 + 1 * k.val = k.val; rw [e1]; omega

/-- What point t writes back is block (t / 11, t % 11) of the specification's hidden activations. -/
theorem gu_flushed (c : Dev nD) (t : Fin cfg1.N) :
    (dat1 (F := Ideal) V c).flushed 3 t
      = ((cfg1.win 3).blk t).view.read (Elt Ideal)
          (Cert.Mlp.Spec.mid (V c main_v4 : Cert.Mlp.Spec.Xs.Idx → EReal) (V c main_v1 : Cert.Mlp.Spec.Ws.Idx → EReal) (V c main_v2 : Cert.Mlp.Spec.Ws.Idx → EReal)) := by
  show (cfg1.win 3).cut (grid1.coords t) ((dat1 (F := Ideal) V c).after 3 t) = _
  rw [after1_3]
  unfold guOut
  rw [View.canon_unit_zero gu_hz]
  simp only [View.ld_unit_zero (S := S512x2048) gu_hz]
  obtain ⟨-, -, -, -, -, -, e0, e1⟩ := gu_idx t
  have ht : t.val < 176 := lt_of_lt_of_eq t.isLt N_1
  funext j
  have hj0 : (j 0).val < 512 := (j 0).isLt
  have hj1 : (j 1).val < 512 := (j 1).isLt
  have hx : ((cfg1.win 3).xinj (grid1.coords t) j : S512x512.Idx) = ix2 (⟨(j 0).val, hj0⟩ : Fin 512) (⟨(j 1).val, hj1⟩ : Fin 512) :=
    funext fun a => Fin.ext (by match a with | ⟨0, _⟩ => rfl | ⟨1, _⟩ => rfl)
  show k1_pay1 (iblk1 V c 0 t) (iblk1 V c 1 t) (iblk1 V c 2 t) ((cfg1.win 3).xinj (grid1.coords t) j) = _
  refine (congrArg (k1_pay1 (iblk1 V c 0 t) (iblk1 V c 1 t) (iblk1 V c 2 t)) hx).trans ?_
  refine (gu_point (iblk1 V c 0 t) (iblk1 V c 1 t) (iblk1 V c 2 t) (V c main_v4) (V c main_v1) (V c main_v2)
    ⟨(j 0).val, hj0⟩ ⟨(j 1).val, hj1⟩ ⟨512 * (t.val / 11) + (j 0).val, by omega⟩ ⟨512 * (t.val % 11) + (j 1).val, by omega⟩
    (fun k => gu_blk0 V c t _ k _ rfl) (fun k => gu_blk1 V c t _ k _ rfl) (fun k => gu_blk2 V c t _ k _ rfl)).trans ?_
  show _ = Cert.Mlp.Spec.midAt _ _ _ ((((cfg1.win 3).blk t).view.emb j) 0) ((((cfg1.win 3).blk t).view.emb j) 1)
  congr 1
  · apply Fin.ext
    show 512 * (t.val / 11) + (j 0).val = win1_3.index t (0 : Fin 2) * 512 + 1 * (j 0).val
    rw [e0]; omega
  · apply Fin.ext
    show 512 * (t.val % 11) + (j 1).val = win1_3.index t (1 : Fin 2) * 512 + 1 * (j 1).val
    rw [e1]; omega

end

/-- An entry of the result is in point t's block iff each coordinate is in the block's range on its axis. -/
theorem gu_mem_blk (t : Fin cfg1.N) (i : S8192x5632.Idx) :
    i ∈ ((cfg1.win 3).blk t).view.set ↔ ∀ a : Fin 2, win1_3.index t a * S512x512.size a ≤ (i a).val ∧ (i a).val < win1_3.index t a * S512x512.size a + S512x512.size a := by
  show i ∈ ((View.whole main_v5).slice (win1_3.rect t)).set ↔ _
  rw [View.set_slice_whole, Rect.mem_set_unit]
  exact Iff.rfl

/-- Entry (r, n) is in the block of point 11 (r / 512) + n / 512. -/
theorem gu_cover (i : S8192x5632.Idx) :
    ∃ t : Fin cfg1.N, (cfg1.win 3).flush t = true ∧ i ∈ ((cfg1.win 3).blk t).view.set := by
  have hi0 : (i 0).val < 8192 := (i 0).isLt
  have hi1 : (i 1).val < 5632 := (i 1).isLt
  have hN : cfg1.N = 176 := N_1
  obtain ⟨t, ht⟩ : ∃ t : Fin cfg1.N, t.val = 11 * ((i 0).val / 512) + (i 1).val / 512 :=
    ⟨⟨11 * ((i 0).val / 512) + (i 1).val / 512, by rw [hN]; omega⟩, rfl⟩
  obtain ⟨-, -, -, -, -, -, e0, e1⟩ := gu_idx t
  refine ⟨t, flush1_3 t, ?_⟩
  rw [gu_mem_blk]
  intro a
  match a with
  | ⟨0, _⟩ =>
    show win1_3.index t (0 : Fin 2) * 512 ≤ (i 0).val ∧ (i 0).val < win1_3.index t (0 : Fin 2) * 512 + 512
    rw [e0, ht]; omega
  | ⟨1, _⟩ =>
    show win1_3.index t (1 : Fin 2) * 512 ≤ (i 1).val ∧ (i 1).val < win1_3.index t (1 : Fin 2) * 512 + 512
    rw [e1, ht]; omega

/-- The result array after the launch is the specification's hidden activations of the three arrays it read. -/
theorem gu_arr (V : (c : Dev nD) → (b : Ref sig .tc) → Buf (Elt Ideal) ((c : Thread nD τ).loc b)) (c : Dev nD) :
    ((dat1 (F := Ideal) V c).arrAt 3 cfg1.N : Cert.Mlp.Spec.Ms.Idx → EReal)
      = Cert.Mlp.Spec.mid (V c main_v4 : Cert.Mlp.Spec.Xs.Idx → EReal) (V c main_v1 : Cert.Mlp.Spec.Ws.Idx → EReal) (V c main_v2 : Cert.Mlp.Spec.Ws.Idx → EReal) :=
  (dat1 (F := Ideal) V c).arrAt_eq_of_cover 3 _ (fun t _ => gu_flushed V c t) gu_cover

end Cert.KernelIdeal.Mlp

end
-- ==== Proof.SumBlocks.lean ====
/-
  A sum over 5632 consecutive indices is eleven consecutive blocks of 512 indices each, and adding eleven
  block sums one after another, starting from zero, is their sum. Addition on the extended reals is
  commutative and associative, so no finiteness is needed.
-/
import Mathlib.Data.EReal.Basic
import Mathlib.Algebra.BigOperators.Fin
import Mathlib.Logic.Equiv.Fin.Basic

namespace Cert.Mlp.SumBlocks

/-- Accumulation from zero, left to right: a 0 = 0 and a (k + 1) = a k + f k. -/
noncomputable def blockFold (f : ℕ → EReal) : ℕ → EReal
  | 0 => 0
  | k + 1 => blockFold f k + f k

@[simp] theorem blockFold_zero (f : ℕ → EReal) : blockFold f 0 = 0 := rfl

theorem blockFold_succ (f : ℕ → EReal) (k : ℕ) : blockFold f (k + 1) = blockFold f k + f k := rfl

/-- Accumulating the first n terms from zero gives their sum. -/
theorem fold_eq_sum (f : ℕ → EReal) (n : ℕ) : blockFold f n = ∑ k ∈ Finset.range n, f k := by
  induction n with
  | zero => simp
  | succ n ih => rw [blockFold_succ, ih, Finset.sum_range_succ]

/-- A sum over m · n consecutive indices is m consecutive blocks of n indices. -/
theorem sum_blocks_gen (m n : ℕ) (F : Fin (m * n) → EReal) :
    (∑ i : Fin (m * n), F i) = ∑ b : Fin m, ∑ j : Fin n, F (finProdFinEquiv (b, j)) := by
  rw [← Equiv.sum_comp finProdFinEquiv F, Fintype.sum_prod_type]

/-- A sum over 5632 indices is eleven consecutive blocks of 512. -/
theorem sum_blocks (F : Fin 5632 → EReal) :
    (∑ n : Fin 5632, F n) = ∑ b : Fin 11, ∑ j : Fin 512, F ⟨512 * b.val + j.val, by omega⟩ := by
  refine (sum_blocks_gen 11 512 F).trans ?_
  refine Finset.sum_congr rfl fun b _ => Finset.sum_congr rfl fun j _ => ?_
  congr 1
  apply Fin.ext
  show j.val + 512 * b.val = 512 * b.val + j.val
  omega

/-- A sum over eleven blocks is the eleven block sums accumulated from zero, left to right. -/
theorem sum_fin11_eq_fold (g : Fin 11 → EReal) :
    (∑ b : Fin 11, g b) = blockFold (fun k => if h : k < 11 then g ⟨k, h⟩ else 0) 11 := by
  rw [fold_eq_sum, Finset.sum_fin_eq_sum_range]

/-- The sum over 5632 indices as eleven block sums of 512 accumulated from zero, left to right. -/
theorem sum_eq_fold_blocks (F : Fin 5632 → EReal) :
    (∑ n : Fin 5632, F n)
      = blockFold (fun k => if h : k < 11 then ∑ j : Fin 512, F ⟨512 * k + j.val, by omega⟩ else 0) 11 := by
  rw [sum_blocks, sum_fin11_eq_fold]

end Cert.Mlp.SumBlocks
-- ==== Proof.KI.DownPieces.lean ====
/-
  What each control case of the down projection's body leaves, as one block value.

  With x the staged block of the hidden activations, y the staged columns of the down weights and a the accumulator
  found in the scratch: at k = 0 the scratch is reset to the zero block and then updated, so it ends at update(x, y, 0);
  at every other k it ends at update(x, y, a); at k = 10 the output block is the scratch read back after its update,
  the same update(x, y, a). Here update(x, y, a) = a + x · yᵀ.
-/
import proofs.«165255_j59047210385427_1_alg».proof.Proof.KI.Down
import proofs.«165255_j59047210385427_1_alg».proof.Proof.Spec
import proofs.«165255_j59047210385427_1_alg».proof.Proof.SumBlocks
import Idealize.ShloMosaic.Lib.Pipeline.Value
import Idealize.ShloMosaic.Lib.ValueIdx
import Idealize.ShloMosaic.PureOps.Ideal.Laws

set_option maxRecDepth 16384

noncomputable section

namespace Cert.KernelIdeal.Mlp

open Cert.KernelIdeal.Gen
open Idealize.ShloMosaic Idealize.ShloMosaic.TcCoe Idealize.ShloMosaic.ValueIdx Idealize.ShloMosaic.Tactic
open Idealize.SL.Sem
open Idealize.ShloMosaic.Pipeline (Dat)

variable {F : FTy → Type} [FloatOps F]

/-- The zero offsets of a whole-block access. -/
theorem hz2 : (![0, 0] : Fin 2 → Nat) = fun _ => 0 := funext fun a => by fin_cases a <;> rfl

/-- 0 < k < 10: the scratch ends at the update of what it held. -/
theorem soutB_eq (c : Dev nD) (i : grid2.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond2_0 i) (hc1 : ¬cond2_1 i) (x0 : Vec F S512x512 .bf16) (x1 : Vec F S2048x512 .bf16) (xs : Vec F S512x2048 .f32) :
    soutB c i arg2 harg2 arg3 harg3 arg4 harg4 arg5 harg5 hc0 hc1 x0 x1 xs = k2_pay2 x0 x1 xs := by
  unfold soutB
  rw [View.read_writes_eq_canon _ _ _ (scoverB c i arg2 harg2 arg3 harg3 arg4 harg4 arg5 harg5 hc0 hc1 x0 x1 xs)]
  unfold downRunB
  dsimp only
  sl_unfold_words
  rw [View.canon_unit_zero hz2]
  simp only [View.readAt_eq_ld, harg2.read_unread, harg3.read_unread, harg4.read_unread, harg5.read_unread, View.ld_unit_zero (S := S512x512) hz2, View.ld_unit_zero (S := S2048x512) hz2, View.ld_unit_zero (S := S512x2048) hz2]

/-- k = 0: the scratch ends at the update of the zero block. -/
theorem soutA_eq (c : Dev nD) (i : grid2.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : cond2_0 i) (hc1 : ¬cond2_1 i) (x0 : Vec F S512x512 .bf16) (x1 : Vec F S2048x512 .bf16) :
    soutA c i arg2 harg2 arg3 harg3 arg4 harg4 arg5 harg5 hc0 hc1 x0 x1 = k2_pay2 x0 x1 k2_pay1 := by
  unfold soutA
  rw [View.read_writes_eq_canon _ _ _ (scoverA c i arg2 harg2 arg3 harg3 arg4 harg4 arg5 harg5 hc0 hc1 x0 x1)]
  unfold downRunA
  dsimp only
  sl_unfold_words
  rw [View.canon_cons_unit_zero (S := S512x2048) hz2, View.readCov_unit_zero (S := S512x2048) _ hz2]
  simp only [View.readAt_eq_ld, harg2.read_unread, harg3.read_unread, harg4.read_unread, harg5.read_unread, View.ld_unit_zero (S := S512x512) hz2, View.ld_unit_zero (S := S2048x512) hz2, View.ld_unit_zero (S := S512x2048) hz2]

/-- k = 10: the scratch ends at the update of what it held, -/
theorem soutC_eq (c : Dev nD) (i : grid2.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond2_0 i) (hc1 : cond2_1 i) (x0 : Vec F S512x512 .bf16) (x1 : Vec F S2048x512 .bf16) (xs : Vec F S512x2048 .f32) :
    soutC c i arg2 harg2 arg3 harg3 arg4 harg4 arg5 harg5 hc0 hc1 x0 x1 xs = k2_pay2 x0 x1 xs := by
  unfold soutC
  rw [View.read_writes_eq_canon _ _ _ (scoverC c i arg2 harg2 arg3 harg3 arg4 harg4 arg5 harg5 hc0 hc1 x0 x1 xs)]
  unfold downRunC
  dsimp only
  sl_unfold_words
  rw [View.canon_unit_zero hz2]
  simp only [View.readAt_eq_ld, harg2.read_unread, harg3.read_unread, harg4.read_unread, harg5.read_unread, View.ld_unit_zero (S := S512x512) hz2, View.ld_unit_zero (S := S2048x512) hz2, View.ld_unit_zero (S := S512x2048) hz2]

/-- and the output block is that same value, read back from the scratch. -/
theorem ooutC_eq (c : Dev nD) (i : grid2.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x2048 .f32) (harg5 : arg5.IsWhole) (hc0 : ¬cond2_0 i) (hc1 : cond2_1 i) (x0 : Vec F S512x512 .bf16) (x1 : Vec F S2048x512 .bf16) (xs : Vec F S512x2048 .f32) :
    ooutC c i arg2 harg2 arg3 harg3 arg4 harg4 arg5 harg5 hc0 hc1 x0 x1 xs = k2_pay2 x0 x1 xs := by
  unfold ooutC
  rw [View.read_writes_eq_canon _ _ _ (ocoverC c i arg2 harg2 arg3 harg3 arg4 harg4 arg5 harg5 hc0 hc1 x0 x1 xs)]
  unfold downRunC
  dsimp only
  sl_unfold_words
  rw [View.canon_unit_zero hz2]
  simp only [View.readAt_eq_ld, harg2.read_unread, harg3.read_unread, harg4.read_unread, harg5.read_unread, View.ld_unit_zero (S := S512x512) hz2, View.ld_unit_zero (S := S2048x512) hz2, View.ld_unit_zero (S := S512x2048) hz2, View.readCov_unit_zero (S := S512x2048) _ hz2]

end Cert.KernelIdeal.Mlp

end
-- ==== Proof.KI.DownPay.lean ====
/-
  The down projection's block update, entry by entry, over the extended reals.

  For blocks x (512 × 512, a block of the hidden activations), y (2048 × 512, columns of the down weights) and an
  accumulator a (512 × 2048), entry (p, q) of the updated accumulator is a[p, q] + Σ_j x[p, j] · y[q, j]: the product
  contracts the second axis of both operands (x · yᵀ). The reset block is zero at every entry.
-/
import proofs.«165255_j59047210385427_1_alg».proof.Proof.KI.Down
import proofs.«165255_j59047210385427_1_alg».proof.Proof.Spec
import proofs.«165255_j59047210385427_1_alg».proof.Proof.SumBlocks
import Idealize.ShloMosaic.Lib.Pipeline.Value
import Idealize.ShloMosaic.Lib.ValueIdx
import Idealize.ShloMosaic.PureOps.Ideal.Laws

set_option maxRecDepth 16384

noncomputable section

namespace Cert.KernelIdeal.Mlp

open Cert.KernelIdeal.Gen
open Idealize.ShloMosaic Idealize.ShloMosaic.TcCoe Idealize.ShloMosaic.ValueIdx Idealize.ShloMosaic.Tactic
open Idealize.SL.Sem

/-! ## The operand indices of x · yᵀ on a block: output (p, q) and contraction index j read x at (p, j), y at (q, j) -/

theorem dn_lhs_0 (i : S512x2048.Idx) (q : dot_S512x512_S2048x512_S512x2048_1_1_0_0_n_n.contr.Idx) :
    (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl
theorem dn_lhs_1 (i : S512x2048.Idx) (q : dot_S512x512_S2048x512_S512x2048_1_1_0_0_n_n.contr.Idx) :
    (dot_S512x512_S2048x512_S512x2048_1_1_0_0_n_n.lhsIdx i q 1).val = (q ⟨0, by decide⟩).val :=
  dot_S512x512_S2048x512_S512x2048_1_1_0_0_n_n.lhsIdx_val_of_single rfl i q
theorem dn_rhs_0 (i : S512x2048.Idx) (q : dot_S512x512_S2048x512_S512x2048_1_1_0_0_n_n.contr.Idx) :
    (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl
theorem dn_rhs_1 (i : S512x2048.Idx) (q : dot_S512x512_S2048x512_S512x2048_1_1_0_0_n_n.contr.Idx) :
    (dot_S512x512_S2048x512_S512x2048_1_1_0_0_n_n.rhsIdx i q 1).val = (q ⟨0, by decide⟩).val :=
  dot_S512x512_S2048x512_S512x2048_1_1_0_0_n_n.rhsIdx_val_of_single rfl i q

/-- Entry (p, q) of x · yᵀ accumulated into zero: Σ_j x[p, j] · y[q, j]. -/
theorem dn_matmul_apply (x : FVec Ideal S512x512 .bf16) (y : FVec Ideal S2048x512 .bf16) (p : Fin 512) (q : Fin 2048) :
    matmul dot_S512x512_S2048x512_S512x2048_1_1_0_0_n_n none x y (constant (F := Ideal) S512x2048 .f32 0x00000000#32) (ix2 p q)
      = ∑ j : Fin 512, x (ix2 p j) * y (ix2 q j) := by
  refine (Ideal.matmul_constant_zero_apply dot_S512x512_S2048x512_S512x2048_1_1_0_0_n_n none x y (ix2 p q)).trans ?_
  rw [← Equiv.sum_comp (ValueIdx.contrEquiv1 dot_S512x512_S2048x512_S512x2048_1_1_0_0_n_n 512 rfl rfl).symm]
  refine Finset.sum_congr rfl fun k _ => ?_
  have hk := ValueIdx.contrEquiv1_symm_val dot_S512x512_S2048x512_S512x2048_1_1_0_0_n_n 512 rfl rfl k
  have el : dot_S512x512_S2048x512_S512x2048_1_1_0_0_n_n.lhsIdx (ix2 p q) ((ValueIdx.contrEquiv1 dot_S512x512_S2048x512_S512x2048_1_1_0_0_n_n 512 rfl rfl).symm k) = ix2 p k := funext fun a => Fin.ext (by
    match a with
    | ⟨0, _⟩ => exact dn_lhs_0 _ _
    | ⟨1, _⟩ => exact (dn_lhs_1 _ _).trans hk)
  have er : dot_S512x512_S2048x512_S512x2048_1_1_0_0_n_n.rhsIdx (ix2 p q) ((ValueIdx.contrEquiv1 dot_S512x512_S2048x512_S512x2048_1_1_0_0_n_n 512 rfl rfl).symm k) = ix2 q k := funext fun a => Fin.ext (by
    match a with
    | ⟨0, _⟩ => exact dn_rhs_0 _ _
    | ⟨1, _⟩ => exact (dn_rhs_1 _ _).trans hk)
  rw [el, er]

/-- Entry (p, q) of the updated accumulator: a[p, q] + Σ_j x[p, j] · y[q, j]. -/
theorem dn_pay2_apply (x : Vec Ideal S512x512 .bf16) (y : Vec Ideal S2048x512 .bf16) (a : Vec Ideal S512x2048 .f32) (p : Fin 512) (q : Fin 2048) :
    k2_pay2 x y a (ix2 p q) = a (ix2 p q) + ∑ j : Fin 512, x (ix2 p j) * y (ix2 q j) := by
  have h1 := dn_matmul_apply x y p q
  unfold k2_pay2
  simp only [shapeCast_self]
  show a (ix2 p q) + matmul dot_S512x512_S2048x512_S512x2048_1_1_0_0_n_n none x y (constant (F := Ideal) S512x2048 .f32 0x00000000#32) (ix2 p q) = _
  rw [h1]

/-- The reset block is zero at every entry. -/
theorem dn_pay1_apply (p : Fin 512) (q : Fin 2048) : k2_pay1 (F := Ideal) (ix2 p q) = 0 := by
  unfold k2_pay1
  simp only [shapeCast_self]
  exact Ideal.ofBits_zero_f32

end Cert.KernelIdeal.Mlp

end
-- ==== Proof.KI.DownValue.lean ====
/-
  The value of the down projection's launch over the extended reals: the result array ends at h · Dᵀ.

  Point t = 11 i + k of the 16 × 11 grid stages the block of h at rows 512 i …, columns 512 k …, and the block of D at
  all rows, columns 512 k …. By induction on the point, after point 11 i + k the scratch holds at (p, q) the partial sum
  Σ_{k' ≤ k} Σ_j h[512 i + p, 512 k' + j] · D[q, 512 k' + j], the block sums accumulated from zero, left to right. At
  k = 10 this is the whole sum over the 5632 inner indices, and the output block, a copy of the scratch, is written
  back to rows 512 i … of the result. The sixteen points with k = 10 cover every row.
-/
import proofs.«165255_j59047210385427_1_alg».proof.Proof.KI.Down
import proofs.«165255_j59047210385427_1_alg».proof.Proof.KI.DownPieces
import proofs.«165255_j59047210385427_1_alg».proof.Proof.KI.DownPay
import proofs.«165255_j59047210385427_1_alg».proof.Proof.Spec
import proofs.«165255_j59047210385427_1_alg».proof.Proof.SumBlocks
import Idealize.ShloMosaic.Lib.Pipeline.Value
import Idealize.ShloMosaic.Lib.ValueIdx
import Idealize.ShloMosaic.PureOps.Ideal.Laws

set_option maxRecDepth 16384

noncomputable section

namespace Cert.KernelIdeal.Mlp

open Cert.KernelIdeal.Gen
open Idealize.ShloMosaic Idealize.ShloMosaic.TcCoe Idealize.ShloMosaic.ValueIdx Idealize.ShloMosaic.Tactic
open Idealize.SL.Sem
open Idealize.ShloMosaic.Pipeline (Dat)

open Cert.Mlp

section
variable (V : (c : Dev nD) → (b : Ref sig .tc) → Buf (Elt Ideal) ((c : Thread nD τ).loc b))

/-! ## The arrays and the staged blocks, by their literal types -/

/-- The hidden activations h, 8192 × 5632. -/
abbrev harr (c : Dev nD) : Spec.Ms.Idx → EReal := V c main_v5
/-- The down weights D, 2048 × 5632. -/
abbrev darr (c : Dev nD) : Spec.Ds.Idx → EReal := V c main_v3
/-- The block of h staged at point t. -/
abbrev hblk (c : Dev nD) (t : Fin cfg2.N) : Vec Ideal S512x512 .bf16 := iblk2 V c 0 t
/-- The block of D staged at point t. -/
abbrev dblk (c : Dev nD) (t : Fin cfg2.N) : Vec Ideal S2048x512 .bf16 := iblk2 V c 1 t

/-! ## The block indices at point t = 11 i + k: (i, k), (0, k), (i, 0) -/

theorem idx2_0 : ∀ t : Fin grid2.N, win2_0.index t 0 = t.val / 11 ∧ win2_0.index t 1 = t.val % 11 := by decide +kernel
theorem idx2_1 : ∀ t : Fin grid2.N, win2_1.index t 0 = 0 ∧ win2_1.index t 1 = t.val % 11 := by decide +kernel
theorem idx2_2 : ∀ t : Fin grid2.N, win2_2.index t 0 = t.val / 11 ∧ win2_2.index t 1 = 0 := by decide +kernel

/-- Entry (p, j) of the staged block of h is h[512 (t / 11) + p, 512 (t % 11) + j]. -/
theorem hblk_apply (c : Dev nD) (t : Fin cfg2.N) (p j : Fin 512) (r : Fin 8192) (m : Fin 5632)
    (hr : r.val = 512 * (t.val / 11) + p.val) (hm : m.val = 512 * (t.val % 11) + j.val) :
    hblk V c t (ix2 p j) = harr V c (ix2 r m) := by
  unfold hblk iblk2
  rw [View.read_apply]
  show V c main_v5 _ = V c main_v5 _
  congr 1
  funext a
  apply Fin.ext
  match a with
  | ⟨0, _⟩ => show win2_0.index t 0 * 512 + 1 * p.val = r.val; rw [(idx2_0 t).1]; omega
  | ⟨1, _⟩ => show win2_0.index t 1 * 512 + 1 * j.val = m.val; rw [(idx2_0 t).2]; omega

/-- Entry (q, j) of the staged block of D is D[q, 512 (t % 11) + j]. -/
theorem dblk_apply (c : Dev nD) (t : Fin cfg2.N) (q : Fin 2048) (j : Fin 512) (m : Fin 5632)
    (hm : m.val = 512 * (t.val % 11) + j.val) :
    dblk V c t (ix2 q j) = darr V c (ix2 q m) := by
  unfold dblk iblk2
  rw [View.read_apply]
  show V c main_v3 _ = V c main_v3 _
  congr 1
  funext a
  apply Fin.ext
  match a with
  | ⟨0, _⟩ => show win2_1.index t 0 * 2048 + 1 * q.val = q.val; rw [(idx2_1 t).1]; omega
  | ⟨1, _⟩ => show win2_1.index t 1 * 512 + 1 * j.val = m.val; rw [(idx2_1 t).2]; omega

/-! ## The partial sums -/

/-- The contribution of inner block k to entry (r, q) of h · Dᵀ: Σ_j h[r, 512 k + j] · D[q, 512 k + j] (zero past the
    eleventh block). -/
def blockTerm (h : Spec.Ms.Idx → EReal) (d : Spec.Ds.Idx → EReal) (r : Fin 8192) (q : Fin 2048) (k : ℕ) : EReal :=
  if hk : k < 11 then ∑ j : Fin 512, h (ix2 r ⟨512 * k + j.val, by omega⟩) * d (ix2 q ⟨512 * k + j.val, by omega⟩) else 0

/-- The eleven contributions accumulated from zero are the whole entry. -/
theorem downAt_eq_fold (h : Spec.Ms.Idx → EReal) (d : Spec.Ds.Idx → EReal) (r : Fin 8192) (q : Fin 2048) :
    Spec.downAt h d r q = SumBlocks.blockFold (blockTerm h d r q) 11 :=
  SumBlocks.sum_eq_fold_blocks fun n => h (ix2 r n) * d (ix2 q n)

/-- The product of the blocks staged at point t, at (p, q), is inner block t % 11's contribution to row 512 (t / 11) + p. -/
theorem term_eq (c : Dev nD) (t : Fin cfg2.N) (p : Fin 512) (q : Fin 2048) (r : Fin 8192) (hr : r.val = 512 * (t.val / 11) + p.val) :
    (∑ j : Fin 512, hblk V c t (ix2 p j) * dblk V c t (ix2 q j)) = blockTerm (harr V c) (darr V c) r q (t.val % 11) := by
  unfold blockTerm
  rw [dif_pos (Nat.mod_lt _ (by decide))]
  refine Finset.sum_congr rfl fun j _ => ?_
  rw [hblk_apply V c t p j r ⟨512 * (t.val % 11) + j.val, by omega⟩ hr rfl, dblk_apply V c t q j ⟨512 * (t.val % 11) + j.val, by omega⟩ rfl]

/-- The same at the point numbered n. -/
theorem term_eq' (c : Dev nD) (n : ℕ) (hn : n < cfg2.N) (p : Fin 512) (q : Fin 2048) (r : Fin 8192) (hr : r.val = 512 * (n / 11) + p.val) :
    (∑ j : Fin 512, hblk V c ⟨n, hn⟩ (ix2 p j) * dblk V c ⟨n, hn⟩ (ix2 q j)) = blockTerm (harr V c) (darr V c) r q (n % 11) :=
  term_eq V c ⟨n, hn⟩ p q r hr

/-! ## The invariant: the scratch after point n holds the partial sums through inner block n % 11 -/

theorem scratch_inv (c : Dev nD) : ∀ (n : ℕ) (hn : n < cfg2.N) (p : Fin 512) (q : Fin 2048) (r : Fin 8192), r.val = 512 * (n / 11) + p.val →
    (outsAt2 V c n hn).2 (ix2 p q) = SumBlocks.blockFold (blockTerm (harr V c) (darr V c) r q) (n % 11 + 1) := by
  intro n
  induction n using Nat.strong_induction_on with
  | _ n ih =>
    intro hn p q r hr
    have hN : n < 176 := lt_of_lt_of_eq hn N_2
    by_cases h0 : n % 11 = 0
    · have h1 : ¬n % 11 = 10 := by omega
      rw [outsAt2_A V c ⟨n, hn⟩ h0 h1]; dsimp only
      refine (congrFun (soutA_eq (F := Ideal) c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) scM2 (Memref.isWhole_whole _) ((hcond2_0 ⟨n, hn⟩).mpr h0) (fun h => h1 ((hcond2_1 ⟨n, hn⟩).mp h)) (hblk V c ⟨n, hn⟩) (dblk V c ⟨n, hn⟩)) (ix2 p q)).trans ?_
      refine (dn_pay2_apply (hblk V c ⟨n, hn⟩) (dblk V c ⟨n, hn⟩) (k2_pay1 (F := Ideal)) p q).trans ?_
      rw [dn_pay1_apply, term_eq' V c n hn p q r hr, SumBlocks.blockFold_succ, h0, SumBlocks.blockFold_zero]
    · by_cases h1 : n % 11 = 10
      · rw [outsAt2_C V c ⟨n, hn⟩ h0 h1]; dsimp only
        refine (congrFun (soutC_eq (F := Ideal) c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) scM2 (Memref.isWhole_whole _) (fun h => h0 ((hcond2_0 ⟨n, hn⟩).mp h)) ((hcond2_1 ⟨n, hn⟩).mpr h1) (hblk V c ⟨n, hn⟩) (dblk V c ⟨n, hn⟩) (outsAt2 V c (n - 1) (Nat.lt_of_le_of_lt (Nat.sub_le _ _) hn)).2) (ix2 p q)).trans ?_
        refine (dn_pay2_apply (hblk V c ⟨n, hn⟩) (dblk V c ⟨n, hn⟩) (outsAt2 V c (n - 1) (Nat.lt_of_le_of_lt (Nat.sub_le _ _) hn)).2 p q).trans ?_
        rw [ih (n - 1) (by omega) (Nat.lt_of_le_of_lt (Nat.sub_le _ _) hn) p q r (by omega), show (n - 1) % 11 + 1 = n % 11 from by omega,
          term_eq' V c n hn p q r hr]
        exact (SumBlocks.blockFold_succ _ _).symm
      · rw [outsAt2_B V c ⟨n, hn⟩ h0 h1]; dsimp only
        refine (congrFun (soutB_eq (F := Ideal) c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) scM2 (Memref.isWhole_whole _) (fun h => h0 ((hcond2_0 ⟨n, hn⟩).mp h)) (fun h => h1 ((hcond2_1 ⟨n, hn⟩).mp h)) (hblk V c ⟨n, hn⟩) (dblk V c ⟨n, hn⟩) (outsAt2 V c (n - 1) (Nat.lt_of_le_of_lt (Nat.sub_le _ _) hn)).2) (ix2 p q)).trans ?_
        refine (dn_pay2_apply (hblk V c ⟨n, hn⟩) (dblk V c ⟨n, hn⟩) (outsAt2 V c (n - 1) (Nat.lt_of_le_of_lt (Nat.sub_le _ _) hn)).2 p q).trans ?_
        rw [ih (n - 1) (by omega) (Nat.lt_of_le_of_lt (Nat.sub_le _ _) hn) p q r (by omega), show (n - 1) % 11 + 1 = n % 11 from by omega,
          term_eq' V c n hn p q r hr]
        exact (SumBlocks.blockFold_succ _ _).symm

/-- At k = 10 the output block is the scratch, -/
theorem out_eq_scratch (c : Dev nD) (n : ℕ) (hn : n < cfg2.N) (h1 : n % 11 = 10) (p : Fin 512) (q : Fin 2048) :
    (outsAt2 V c n hn).1 (ix2 p q) = (outsAt2 V c n hn).2 (ix2 p q) := by
  have h0 : ¬n % 11 = 0 := by omega
  rw [outsAt2_C V c ⟨n, hn⟩ h0 h1]; dsimp only
  exact (congrFun (ooutC_eq (F := Ideal) c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) scM2 (Memref.isWhole_whole _) (fun h => h0 ((hcond2_0 ⟨n, hn⟩).mp h)) ((hcond2_1 ⟨n, hn⟩).mpr h1) (hblk V c ⟨n, hn⟩) (dblk V c ⟨n, hn⟩) (outsAt2 V c (n - 1) (Nat.lt_of_le_of_lt (Nat.sub_le _ _) hn)).2) (ix2 p q)).trans
    (congrFun (soutC_eq (F := Ideal) c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) scM2 (Memref.isWhole_whole _) (fun h => h0 ((hcond2_0 ⟨n, hn⟩).mp h)) ((hcond2_1 ⟨n, hn⟩).mpr h1) (hblk V c ⟨n, hn⟩) (dblk V c ⟨n, hn⟩) (outsAt2 V c (n - 1) (Nat.lt_of_le_of_lt (Nat.sub_le _ _) hn)).2) (ix2 p q)).symm

/-- so it holds the whole entries of rows 512 (n / 11) … of h · Dᵀ. -/
theorem out_eq_down (c : Dev nD) (n : ℕ) (hn : n < cfg2.N) (h1 : n % 11 = 10) (p : Fin 512) (q : Fin 2048) (r : Fin 8192)
    (hr : r.val = 512 * (n / 11) + p.val) :
    (outsAt2 V c n hn).1 (ix2 p q) = Spec.downAt (harr V c) (darr V c) r q := by
  rw [out_eq_scratch V c n hn h1 p q, scratch_inv V c n hn p q r hr, h1, downAt_eq_fold]

/-- An entry of the output block at a point with k = 10 is the entry of h · Dᵀ at any index naming row
    512 (n / 11) + p and column q. -/
theorem out_eq_down_idx (c : Dev nD) (n : ℕ) (hn : n < cfg2.N) (h1 : n % 11 = 10) (p : Fin 512) (q : Fin 2048) (i : Spec.Xs.Idx)
    (hi0 : (i 0).val = 512 * (n / 11) + p.val) (hi1 : (i 1).val = q.val) :
    (outsAt2 V c n hn).1 (ix2 p q) = Spec.down (harr V c) (darr V c) i := by
  obtain rfl : q = i 1 := Fin.ext hi1.symm
  exact out_eq_down V c n hn h1 p (i 1) (i 0) hi0

/-! ## The write-backs -/

/-- What a point with k = 10 writes back is its block of h · Dᵀ. -/
theorem flushed_eq (c : Dev nD) (t : Fin cfg2.N) (hf : (cfg2.win 2).flush t = true) :
    (dat2 V c).flushed 2 t = ((cfg2.win 2).blk t).view.read (Elt Ideal) (Spec.down (harr V c) (darr V c)) := by
  have h10 : t.val % 11 = 10 := (flush2_2 t).mp hf
  show (cfg2.win 2).cut (grid2.coords t) ((dat2 V c).after 2 t) = _
  rw [after2_2]
  funext y
  rw [View.read_apply]
  have hy0 : (y 0).val < 512 := (y 0).isLt
  have hy1 : (y 1).val < 2048 := (y 1).isLt
  have ey : (cfg2.win 2).xinj (grid2.coords t) y = ix2 (⟨(y 0).val, hy0⟩ : Fin 512) (⟨(y 1).val, hy1⟩ : Fin 2048) := funext fun a => by
    match a with
    | ⟨0, _⟩ => rfl
    | ⟨1, _⟩ => rfl
  show (outsAt2 V c t.val t.isLt).1 ((cfg2.win 2).xinj (grid2.coords t) y) = Spec.down (harr V c) (darr V c) (((cfg2.win 2).blk t).view.emb y)
  refine (congrArg (outsAt2 V c t.val t.isLt).1 ey).trans ?_
  refine out_eq_down_idx V c t.val t.isLt h10 ⟨(y 0).val, hy0⟩ ⟨(y 1).val, hy1⟩ (((cfg2.win 2).blk t).view.emb y) ?_ ?_
  · show win2_2.index t 0 * 512 + 1 * (y 0).val = 512 * (t.val / 11) + (y 0).val
    rw [(idx2_2 t).1]; omega
  · show win2_2.index t 1 * 2048 + 1 * (y 1).val = (y 1).val
    rw [(idx2_2 t).2]; omega

/-- Row r of the result lies in the block written back at point 11 (r / 512) + 10. -/
theorem cover2 (c : Dev nD) (i : ((cfg2.win 2).arr.view.loc (c.tc : Thread nD τ)).2.ty.Idx) :
    ∃ t : Fin cfg2.N, (cfg2.win 2).flush t = true ∧ i ∈ ((cfg2.win 2).blk t).view.set := by
  have hi0 : (i 0 : Nat) < 8192 := (i 0).isLt
  have hi1 : (i 1 : Nat) < 2048 := (i 1).isLt
  have hN : cfg2.N = 176 := N_2
  obtain ⟨t, ht⟩ : ∃ t : Fin cfg2.N, t.val = 11 * ((i 0 : Nat) / 512) + 10 := ⟨⟨11 * ((i 0 : Nat) / 512) + 10, by rw [hN]; omega⟩, rfl⟩
  refine ⟨t, (flush2_2 t).mpr (by omega), ?_⟩
  show i ∈ ((View.whole main_v6).slice (win2_2.rect t)).set
  rw [View.set_slice_whole, Rect.mem_set_unit]
  intro a
  match a with
  | ⟨0, _⟩ =>
    show win2_2.index t 0 * 512 ≤ (i 0 : Nat) ∧ (i 0 : Nat) < win2_2.index t 0 * 512 + 512
    rw [(idx2_2 t).1]; omega
  | ⟨1, _⟩ =>
    show win2_2.index t 1 * 2048 ≤ (i 1 : Nat) ∧ (i 1 : Nat) < win2_2.index t 1 * 2048 + 2048
    rw [(idx2_2 t).2]; omega

/-! ## The result array -/

/-- After the launch the result array holds h · Dᵀ. -/
theorem down_arr (c : Dev nD) :
    ((dat2 (F := Ideal) V c).arrAt 2 cfg2.N : Cert.Mlp.Spec.Xs.Idx → EReal) = Cert.Mlp.Spec.down (V c main_v5 : Cert.Mlp.Spec.Ms.Idx → EReal) (V c main_v3 : Cert.Mlp.Spec.Ds.Idx → EReal) :=
  (dat2 V c).arrAt_eq_of_cover 2 (Spec.down (harr V c) (darr V c)) (flushed_eq V c) (cover2 c)

end

end Cert.KernelIdeal.Mlp

end
-- ==== Proof.KI.Whole.lean ====
/-
  The whole kernel program at the ideal instance: its result buffer ends at the specification's function of the five
  argument arrays.

  The third launch leaves h · Dᵀ of what it finds in the hidden-activation and down-weight buffers; the second left the
  gated product of what it found in the rotated-activation, gate and up buffers; the first left x · Hᵀ of x and the cast
  H. A cast to a narrower float format is the identity on extended reals, so each cast buffer holds its argument, and
  no launch writes a buffer another launch's inputs are read from before that launch runs.
-/
import proofs.«165255_j59047210385427_1_alg».proof.Proof.KI.Run
import proofs.«165255_j59047210385427_1_alg».proof.Proof.KI.RotValue
import proofs.«165255_j59047210385427_1_alg».proof.Proof.KI.GateUpValue
import proofs.«165255_j59047210385427_1_alg».proof.Proof.KI.DownValue
import proofs.«165255_j59047210385427_1_alg».proof.Proof.Spec
import Idealize.ShloMosaic.Lib.StableHlo.Run

set_option maxRecDepth 16384

noncomputable section

namespace Cert.KernelIdeal.Mlp

open Cert.KernelIdeal.Gen
open Idealize.ShloMosaic Idealize.ShloMosaic.TcCoe Idealize.SL.Sem

variable (m : (ℓ : Loc nD τ sig) → Buf (Elt Ideal) ℓ)

/-- After the casts, each cast buffer holds its argument, entry by entry (the cast is the identity on extended reals). -/
theorem W1_v0 (c : Dev nD) : (W1 m c (Proc.devRef .tc main_v0) : Cert.Mlp.Spec.Hs.Idx → EReal) = m ((c : Thread nD τ).loc main_arg1) := by
  show StableHlo.after hostOps0 (fun b => m (c, b)) (Proc.devRef .tc main_v0) = _
  after_results; rfl
theorem W1_v1 (c : Dev nD) : (W1 m c (Proc.devRef .tc main_v1) : Cert.Mlp.Spec.Ws.Idx → EReal) = m ((c : Thread nD τ).loc main_arg2) := by
  show StableHlo.after hostOps0 (fun b => m (c, b)) (Proc.devRef .tc main_v1) = _
  after_results; rfl
theorem W1_v2 (c : Dev nD) : (W1 m c (Proc.devRef .tc main_v2) : Cert.Mlp.Spec.Ws.Idx → EReal) = m ((c : Thread nD τ).loc main_arg3) := by
  show StableHlo.after hostOps0 (fun b => m (c, b)) (Proc.devRef .tc main_v2) = _
  after_results; rfl
theorem W1_v3 (c : Dev nD) : (W1 m c (Proc.devRef .tc main_v3) : Cert.Mlp.Spec.Ds.Idx → EReal) = m ((c : Thread nD τ).loc main_arg4) := by
  show StableHlo.after hostOps0 (fun b => m (c, b)) (Proc.devRef .tc main_v3) = _
  after_results; rfl
/-- The casts do not write x. -/
theorem W1_arg0 (c : Dev nD) : W1 m c (Proc.devRef .tc main_arg0) = m ((c : Thread nD τ).loc main_arg0) := by
  show StableHlo.after hostOps0 (fun b => m (c, b)) (Proc.devRef .tc main_arg0) = _
  after_results

/-- What the rotation finds and leaves. -/
theorem V2_v4 (c : Dev nD) : (V2 m c main_v4 : Cert.Mlp.Spec.Xs.Idx → EReal)
    = Cert.Mlp.Spec.rot (m ((c : Thread nD τ).loc main_arg0)) (m ((c : Thread nD τ).loc main_arg1)) := by
  have h := rot_arr (V1 m) c
  rw [show (V1 m c main_arg0 : Cert.Mlp.Spec.Xs.Idx → EReal) = m ((c : Thread nD τ).loc main_arg0) from W1_arg0 m c,
    show (V1 m c main_v0 : Cert.Mlp.Spec.Hs.Idx → EReal) = m ((c : Thread nD τ).loc main_arg1) from W1_v0 m c] at h
  exact (W2_arr m c 2).trans h

/-- What the gate/up launch finds and leaves. -/
theorem V3_v5 (c : Dev nD) : (V3 m c main_v5 : Cert.Mlp.Spec.Ms.Idx → EReal)
    = Cert.Mlp.Spec.mid (Cert.Mlp.Spec.rot (m ((c : Thread nD τ).loc main_arg0)) (m ((c : Thread nD τ).loc main_arg1)))
        (m ((c : Thread nD τ).loc main_arg2)) (m ((c : Thread nD τ).loc main_arg3)) := by
  have h := gu_arr (V2 m) c
  rw [V2_v4 m c,
    show (V2 m c main_v1 : Cert.Mlp.Spec.Ws.Idx → EReal) = m ((c : Thread nD τ).loc main_arg2) from
      (W2_of_ne m c main_v1 (by decide)).trans (W1_v1 m c),
    show (V2 m c main_v2 : Cert.Mlp.Spec.Ws.Idx → EReal) = m ((c : Thread nD τ).loc main_arg3) from
      (W2_of_ne m c main_v2 (by decide)).trans (W1_v2 m c)] at h
  exact (W3_arr m c 3).trans h

/-- The result: the specification's function of the five arguments. -/
theorem result_mlp (c : Dev nD) : ((dat2 (F := Ideal) (V3 m) c).arrAt 2 cfg2.N : Cert.Mlp.Spec.Xs.Idx → EReal)
    = Cert.Mlp.Spec.mlp (m ((c : Thread nD τ).loc main_arg0)) (m ((c : Thread nD τ).loc main_arg1))
        (m ((c : Thread nD τ).loc main_arg2)) (m ((c : Thread nD τ).loc main_arg3)) (m ((c : Thread nD τ).loc main_arg4)) := by
  have h := down_arr (V3 m) c
  rw [V3_v5 m c,
    show (V3 m c main_v3 : Cert.Mlp.Spec.Ds.Idx → EReal) = m ((c : Thread nD τ).loc main_arg4) from
      ((W3_of_ne m c main_v3 (by decide)).trans (W2_of_ne m c main_v3 (by decide))).trans (W1_v3 m c)] at h
  exact h

end Cert.KernelIdeal.Mlp

end
-- ==== Proof.RefValue.lean ====
/-
  The reference program's result array, entry by entry, is the specification's.

  The program forms xr = x · Hᵀ, then s = xr · Gᵀ, then s ⊙ (1 / (1 + e^(−s))), the second projection xr · Uᵀ,
  the entrywise product of the two, and last the product with Dᵀ. Each stage is read at an index (r, c): a matrix
  product is the sum over the contracted coordinate, a transposition swaps the two coordinates, and the quotient
  1 / (1 + e^(−z)) on the extended reals is the logistic function.
-/
import proofs.«165255_j59047210385427_1_alg».proof.Proof.Gen.ReferenceIdeal.Read
import proofs.«165255_j59047210385427_1_alg».proof.Proof.Gen.Pre_finite_inputs
import proofs.«165255_j59047210385427_1_alg».proof.Proof.Spec
import proofs.«165255_j59047210385427_1_alg».proof.Defs

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

open Cert.Mlp.Spec (rotAt rot silu midAt mid downAt down mlp)

section Stages

variable (x : FVec Ideal S8192x2048 .f32) (hh : FVec Ideal S2048x2048 .f32) (g u : FVec Ideal S5632x2048 .f32)
  (d : FVec Ideal S2048x5632 .f32)

/-- Entry (r, c) of the first product is Σ_k x[r, k] · H[c, k]. -/
theorem v1_at (r : Fin 8192) (c : Fin 2048) : val_main_v1 (F := Ideal) x hh (ix2 r c) = rotAt x hh r c := by
  rw [val_main_v1_apply]
  unfold Cert.Mlp.Spec.rotAt
  refine Finset.sum_congr rfl fun k _ => ?_
  rw [val_main_v0_apply]
  have e1 : lidx_main_v1 (ix2 r c) k = ix2 r k := funext fun a => match a with | ⟨0, _⟩ => rfl | ⟨1, _⟩ => rfl
  have e2 : idx_main_v0 (ridx_main_v1 (ix2 r c) k) = ix2 c k :=
    funext fun a => match a with | ⟨0, _⟩ => rfl | ⟨1, _⟩ => rfl
  rw [e1, e2]

/-- The first product is x · Hᵀ. -/
theorem v1_fun : val_main_v1 (F := Ideal) x hh = rot x hh := by
  funext i
  obtain ⟨r, c, rfl⟩ : ∃ (r : Fin 8192) (c : Fin 2048), i = ix2 r c := ⟨i 0, i 1, eq_ix2 i⟩
  exact v1_at x hh r c

/-- Entry (r, n) of the gate projection is Σ_k xr[r, k] · G[n, k]. -/
theorem v3_at (r : Fin 8192) (n : Fin 5632) :
    val_main_v3 (F := Ideal) x hh g (ix2 r n) = ∑ k : Fin 2048, rot x hh (ix2 r k) * g (ix2 n k) := by
  rw [val_main_v3_apply]
  refine Finset.sum_congr rfl fun k _ => ?_
  rw [val_main_v2_apply, v1_fun]
  have e1 : lidx_main_v3 (ix2 r n) k = ix2 r k := funext fun a => match a with | ⟨0, _⟩ => rfl | ⟨1, _⟩ => rfl
  have e2 : idx_main_v2 (ridx_main_v3 (ix2 r n) k) = ix2 n k :=
    funext fun a => match a with | ⟨0, _⟩ => rfl | ⟨1, _⟩ => rfl
  rw [e1, e2]

/-- Entry (r, n) of the up projection is Σ_k xr[r, k] · U[n, k]. -/
theorem v6_at (r : Fin 8192) (n : Fin 5632) :
    val_main_v6 (F := Ideal) x hh u (ix2 r n) = ∑ k : Fin 2048, rot x hh (ix2 r k) * u (ix2 n k) := by
  rw [val_main_v6_apply]
  refine Finset.sum_congr rfl fun k _ => ?_
  rw [val_main_v5_apply, v1_fun]
  have e1 : lidx_main_v6 (ix2 r n) k = ix2 r k := funext fun a => match a with | ⟨0, _⟩ => rfl | ⟨1, _⟩ => rfl
  have e2 : idx_main_v5 (ridx_main_v6 (ix2 r n) k) = ix2 n k :=
    funext fun a => match a with | ⟨0, _⟩ => rfl | ⟨1, _⟩ => rfl
  rw [e1, e2]

/-- The single-precision pattern of one denotes 1. -/
theorem one_f32 : FloatOps.ofBits (F := Ideal) .f32 0x3F800000#32 = 1 := by
  rw [Ideal.ofBits_def]
  simp [Ideal.ofBits, Ideal.ieee, -EReal.coe_mul]; norm_num

/-- The quotient 1 / (1 + e^(−z)) is the logistic function of z. -/
theorem call_v5_at (i : S8192x5632.Idx) :
    val_main_call0_v5 (F := Ideal) x hh g i = Ideal.logistic (val_main_v3 (F := Ideal) x hh g i) := by
  rw [val_main_call0_v5_apply, val_main_call0_v4_apply, val_main_call0_cst_0_apply, val_main_call0_v3_apply,
    val_main_call0_v2_apply, val_main_call0_cst_apply, val_main_call0_v1_apply, val_main_call0_v0_apply, one_f32]
  rfl

/-- The activation stage is z · logistic z of the gate projection. -/
theorem v4_at (i : S8192x5632.Idx) :
    val_main_v4 (F := Ideal) x hh g i = silu (val_main_v3 (F := Ideal) x hh g i) := by
  rw [val_main_v4_apply, call_v5_at]
  rfl

/-- Entry (r, n) of the hidden activation. -/
theorem v7_at (r : Fin 8192) (n : Fin 5632) :
    val_main_v7 (F := Ideal) x hh g u (ix2 r n) = midAt (rot x hh) g u r n := by
  rw [val_main_v7_apply, v4_at, v3_at, v6_at]
  rfl

/-- The hidden activation. -/
theorem v7_fun : val_main_v7 (F := Ideal) x hh g u = mid (rot x hh) g u := by
  funext i
  obtain ⟨r, n, rfl⟩ : ∃ (r : Fin 8192) (n : Fin 5632), i = ix2 r n := ⟨i 0, i 1, eq_ix2 i⟩
  exact v7_at x hh g u r n

/-- Entry (r, c) of the result is Σ_n h[r, n] · D[c, n]. -/
theorem v9_at (r : Fin 8192) (c : Fin 2048) :
    val_main_v9 (F := Ideal) x hh g u d (ix2 r c) = downAt (mid (rot x hh) g u) d r c := by
  rw [val_main_v9_apply]
  unfold Cert.Mlp.Spec.downAt
  refine Finset.sum_congr rfl fun k _ => ?_
  rw [val_main_v8_apply, v7_fun]
  have e1 : lidx_main_v9 (ix2 r c) k = ix2 r k := funext fun a => match a with | ⟨0, _⟩ => rfl | ⟨1, _⟩ => rfl
  have e2 : idx_main_v8 (ridx_main_v9 (ix2 r c) k) = ix2 c k :=
    funext fun a => match a with | ⟨0, _⟩ => rfl | ⟨1, _⟩ => rfl
  rw [e1, e2]

/-- The last stage is the whole computation. -/
theorem v9_fun : val_main_v9 (F := Ideal) x hh g u d = mlp x hh g u d := by
  funext i
  obtain ⟨r, c, rfl⟩ : ∃ (r : Fin 8192) (c : Fin 2048), i = ix2 r c := ⟨i 0, i 1, eq_ix2 i⟩
  exact v9_at x hh g u d r c

end Stages

/-- The reference's result, as its run states it, is the specification of the five argument arrays. -/
theorem result_eq (x : FVec Ideal S8192x2048 .f32) (hh : FVec Ideal S2048x2048 .f32) (g u : FVec Ideal S5632x2048 .f32)
    (d : FVec Ideal S2048x5632 .f32) :
    Host.dotGeneral (F := Ideal) dot_S8192x5632_S5632x2048_S8192x2048_1_0_0_1_n_n none (mulf (mulf (Host.dotGeneral (F := Ideal) dot_S8192x2048_S2048x5632_S8192x5632_1_0_0_1_n_n none (Host.dotGeneral (F := Ideal) dot_S8192x2048_S2048x2048_S8192x2048_1_0_0_1_n_n none (x) (transpose S2048x2048 [1, 0] (hh) transposes_S2048x2048_S2048x2048_1_0)) (transpose S2048x5632 [1, 0] (g) transposes_S5632x2048_S2048x5632_1_0)) (Host.divf (F := Ideal) (broadcastInDim S8192x5632 ![] bcast_S_S8192x5632 (constant (F := Ideal) S_ .f32 0x3F800000#32)) (addf (broadcastInDim S8192x5632 ![] bcast_S_S8192x5632 (constant (F := Ideal) S_ .f32 0x3F800000#32)) (Host.exp (F := Ideal) (Host.negf (F := Ideal) (Host.dotGeneral (F := Ideal) dot_S8192x2048_S2048x5632_S8192x5632_1_0_0_1_n_n none (Host.dotGeneral (F := Ideal) dot_S8192x2048_S2048x2048_S8192x2048_1_0_0_1_n_n none (x) (transpose S2048x2048 [1, 0] (hh) transposes_S2048x2048_S2048x2048_1_0)) (transpose S2048x5632 [1, 0] (g) transposes_S5632x2048_S2048x5632_1_0))))))) (Host.dotGeneral (F := Ideal) dot_S8192x2048_S2048x5632_S8192x5632_1_0_0_1_n_n none (Host.dotGeneral (F := Ideal) dot_S8192x2048_S2048x2048_S8192x2048_1_0_0_1_n_n none (x) (transpose S2048x2048 [1, 0] (hh) transposes_S2048x2048_S2048x2048_1_0)) (transpose S2048x5632 [1, 0] (u) transposes_S5632x2048_S2048x5632_1_0))) (transpose S5632x2048 [1, 0] (d) transposes_S2048x5632_S5632x2048_1_0)
      = mlp x hh g u d :=
  (val_main_v9_eq (F := Ideal) x hh g u d).trans (v9_fun x hh g u d)

/-- The reference runs to its end and leaves its five argument arrays as they were. -/
theorem frame_ri : Cert.frame_ReferenceIdeal := fun m ρ _ =>
  (θ_run Cert.ReferenceIdeal.defs _ _).mono (fun _ h c => (h c).2) (Cert.ReferenceIdeal.Value.run (F := Ideal) m ρ)

/-- Every run ends with the result array equal to the specification of the argument arrays at launch, and the five
    argument arrays as they were. -/
theorem run_mlp (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v9)
          = mlp (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1).trans (result_eq _ _ _ _ _), (h c).2⟩)
    (Cert.ReferenceIdeal.Value.run (F := Ideal) m ρ)

end Cert.ReferenceIdeal.RefValue

end
-- ==== Proof.lean ====
/-
  A rotated gated MLP in three launches against its plain formula: out = ((s · logistic s) ⊙ u) · Dᵀ with
  s = (x · Hᵀ) · Gᵀ and u = (x · Hᵀ) · Uᵀ, over the extended reals.

  The kernel program casts H, G, U, D to a narrower float format on the host (the identity on extended reals) and then
  runs three launches: the rotation x · Hᵀ in 16 row blocks; the two projections and their gated product in 16 × 11
  blocks; the down projection, summed over the inner dimension in 11 blocks of 512 accumulated in a scratch that is
  reset at the first block and copied out at the last. The reference forms the same four matrix products whole and
  spells the logistic function as 1 / (1 + e^(−z)), which on the extended reals is the same function. The two results
  agree entry by entry because a sum over 5632 terms is the sum of its eleven consecutive blocks of 512 added from zero
  in order (addition of extended reals is commutative and associative), with no appeal to finiteness of the inputs.

  Frames: each program terminates without fault and leaves its five argument arrays as launched — for the two kernel
  programs because every launch's body obligation holds at every grid point and no cast or launch writes an argument;
  for the reference because its run is a straight line of host operations none of which writes an argument.
  The idealized kernel program is the word-level one's own text (no rewrite was applied), so nothing is to be preserved.
-/
import proofs.«165255_j59047210385427_1_alg».proof.Defs
import proofs.«165255_j59047210385427_1_alg».proof.Proof.Gen.Kernel
import proofs.«165255_j59047210385427_1_alg».proof.Proof.Gen.KernelIdeal
import proofs.«165255_j59047210385427_1_alg».proof.Proof.Gen.ReferenceIdeal
import proofs.«165255_j59047210385427_1_alg».proof.Proof.Gen.Pre_finite_inputs
import proofs.«165255_j59047210385427_1_alg».proof.Proof.K.Run
import proofs.«165255_j59047210385427_1_alg».proof.Proof.KI.Whole
import proofs.«165255_j59047210385427_1_alg».proof.Proof.RefValue

noncomputable section

namespace Cert.Proof

open Idealize.ShloMosaic Idealize.ShloMosaic.TcCoe Idealize.SL.Sem

theorem frame_k : Cert.frame_Kernel := fun m ρ _ => Cert.Kernel.Mlp.frame (F := Bits) m ρ
theorem frame_ki : Cert.frame_KernelIdeal := fun m ρ _ => Cert.KernelIdeal.Mlp.frame (F := Ideal) m ρ
theorem frame_ri : Cert.frame_ReferenceIdeal := Cert.ReferenceIdeal.RefValue.frame_ri

theorem preserves : Cert.preserves_Kernel_KernelIdeal := trivial

/-- Both idealized programs end with the result array at the specification's function of the (agreeing) arguments. -/
theorem algebraic : Cert.algebraic_KernelIdeal_ReferenceIdeal := by
  intro m ρ m' ρ' _ hagree
  refine ⟨fun c => Cert.Mlp.Spec.mlp (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Mlp.result_mlp m c), (h c).2⟩)
      (Cert.KernelIdeal.Mlp.run_main (F := Ideal) m ρ)
  · refine (θ_run Cert.ReferenceIdeal.defs _ _).mono (fun _ h c => ⟨?_, (h c).2⟩)
      (Cert.ReferenceIdeal.RefValue.run_mlp m' ρ')
    rw [(h c).1, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
